-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S64 : Shape := ⟨1, ![64]⟩
abbrev S512x512 : Shape := ⟨2, ![512, 512]⟩
abbrev S512 : Shape := ⟨1, ![512]⟩
abbrev S512x64 : Shape := ⟨2, ![512, 64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x256 .f32) (main_arg7 : FVec F S256 .f32) (main_arg8 : FVec F S256x1 .f32) (main_arg9 : FVec F S1 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S64x256x2048 .f32) (main_arg1 : IVec S64 32) (main_arg2 : FVec F S512x512 .f32) (main_arg3 : FVec F S512 .f32) (main_arg4 : FVec F S512x64 .f32) (main_arg5 : FVec F S64 .f32) (main_arg6 : FVec F S64x256 .f32) (main_arg7 : FVec F S256 .f32) (main_arg8 : FVec F S256x1 .f32) (main_arg9 : FVec F S1 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg5 main_arg6 main_arg7 main_arg8 main_arg9 main_v13 main_v16
-- ==== Kernel.lean ====
abbrev S64x256x2048 : Shape := ⟨3, ![64, 256, 2048]⟩
abbrev S64 : Shape := ⟨1, ![64]⟩
abbrev S512x512 : Shape := ⟨2, ![512, 512]⟩
abbrev S512 : Shape := ⟨1, ![512]⟩
abbrev S512x64 : Shape := ⟨2, ![512, 64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S64x64 : Shape := ⟨2, ![64, 64]⟩
abbrev S8x256x2048 : Shape := ⟨3, ![8, 256, 2048]⟩
abbrev S8x64 : Shape := ⟨2, ![8, 64]⟩
abbrev S256x512 : Shape := ⟨2, ![256, 512]⟩
abbrev S1x2048 : Shape := ⟨2, ![1, 2048]⟩
abbrev S1x256x2048 : Shape := ⟨3, ![1, 256, 2048]⟩
abbrev S256x2048 : Shape := ⟨2, ![256, 2048]⟩
abbrev S1x256 : Shape := ⟨2, ![1, 256]⟩
abbrev S1x512 : Shape := ⟨2, ![1, 512]⟩
abbrev S1x64 : Shape := ⟨2, ![1, 64]⟩
abbrev S256x256 : Shape := ⟨2, ![256, 256]⟩
abbrev S256x64 : Shape := ⟨2, ![256, 64]⟩
abbrev S_ : Shape := ⟨0, ![]⟩
abbrev S64x1 : Shape := ⟨2, ![64, 1]⟩
abbrev S1x1 : Shape := ⟨2, ![1, 1]⟩

abbrev nBuf : Space → Nat
  | .hbm => 22
  | .vmem => 8
  | .smem => 1
  | _ => 0

abbrev bufTy : (tb : Table) → Fin (tcTables nBuf tb) → BufTy
  | .hbm, ⟨0, _⟩ => ⟨S64x256x2048, .f32⟩
  | .hbm, ⟨1, _⟩ => ⟨S512x512, .f32⟩
  | .hbm, ⟨2, _⟩ => ⟨S512, .f32⟩
  | .hbm, ⟨3, _⟩ => ⟨S512x64, .f32⟩
  | .hbm, ⟨4, _⟩ => ⟨S64, .f32⟩
  | .hbm, ⟨5, _⟩ => ⟨S64x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S64x64, .f32⟩
  | .hbm, ⟨10, _⟩ => ⟨S64x256, .f32⟩
  | .hbm, ⟨11, _⟩ => ⟨S1x256, .f32⟩
  | .hbm, ⟨12, _⟩ => ⟨S64x256, .f32⟩
  | .hbm, ⟨13, _⟩ => ⟨S64x256, .f32⟩
  | .hbm, ⟨14, _⟩ => ⟨S_, .f32⟩
  | .hbm, ⟨15, _⟩ => ⟨S64x256, .f32⟩
  | .hbm, ⟨16, _⟩ => ⟨S64x256, .f32⟩
  | .hbm, ⟨17, _⟩ => ⟨S64x1, .f32⟩
  | .hbm, ⟨18, _⟩ => ⟨S1x1, .f32⟩
  | .hbm, ⟨19, _⟩ => ⟨S64x1, .f32⟩
  | .hbm, ⟨20, _⟩ => ⟨S64x1, .f32⟩
  | .hbm, ⟨21, _⟩ => ⟨S64, .f32⟩
  | .local _ .vmem, ⟨0, _⟩ => ⟨S8x256x2048, .f32⟩
  | .local _ .vmem, ⟨1, _⟩ => ⟨S8x256x2048, .f32⟩
  | .local _ .vmem, ⟨2, _⟩ => ⟨S512x512, .f32⟩
  | .local _ .vmem, ⟨3, _⟩ => ⟨S512, .f32⟩
  | .local _ .vmem, ⟨4, _⟩ => ⟨S512x64, .f32⟩
  | .local _ .vmem, ⟨5, _⟩ => ⟨S64, .f32⟩
  | .local _ .vmem, ⟨6, _⟩ => ⟨S8x64, .f32⟩
  | .local _ .vmem, ⟨7, _⟩ => ⟨S8x64, .f32⟩
  | .local _ .smem, ⟨0, _⟩ => ⟨S64, .i32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v9 : BitVec 32 := Scalar.muli arg0 c8_i32
  let v10 : BitVec 32 := Scalar.addi v9 c0_i32
  let v11 : Index := Scalar.indexCast v10
  ![v11.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S512x512_S256x512_0_0 : ∀ a, (![0, 0] : Fin 2 → Nat) a + S256x512.size a ≤ S512x512.size a
  h_S256x512 : 0 < S256x512.numel
  bitsLt_bf16_f32 : FTy.bits .bf16 < FTy.bits .f32
  inb_S512x512_S256x512_256_0 : ∀ a, (![256, 0] : Fin 2 → Nat) a + S256x512.size a ≤ S512x512.size a
  inb_S512x64_S512x64_0_0 : ∀ a, (![0, 0] : Fin 2 → Nat) a + S512x64.size a ≤ S512x64.size a
  h_S512x64 : 0 < S512x64.numel
  inb_S512_S512_0 : ∀ a, (![0] : Fin 1 → Nat) a + S512.size a ≤ S512.size a
  h_S512 : 0 < S512.numel
  inb_S64_S64_0 : ∀ a, (![0] : Fin 1 → Nat) a + S64.size a ≤ S64.size a
  h_S64 : 0 < S64.numel
  iota_S1x2048_d1_w32 : S1x2048.Iotas .tc 32 [1]
  numel1_S1 : S1.numel = 1
  natLt_1_32 : 1 < 32
  inb_S8x256x2048_S1x256x2048_0_0_0 : ∀ a, (![0, 0, 0] : Fin 3 → Nat) a + S1x256x2048.size a ≤ S8x256x2048.size a
  h_S1x256x2048 : 0 < S1x256x2048.numel
  shapeCasts_S1x256x2048_S256x2048 : S1x256x2048.ShapeCasts S256x2048
  broadcasts_S1x2048_S256x2048 : S1x2048.Broadcasts S256x2048
  reduces_S256x2048_S256 : S256x2048.Reduces [1] S256
  shapeCasts_S256_S1x256 : S256.ShapeCasts S1x256
  slices_S256x2048_o0_0_S256x256 : S256x2048.Slices ![0, 0] S256x256
  slices_S1x2048_o0_0_S1x256 : S1x2048.Slices ![0, 0] S1x256
  broadcasts_S1x512_S256x512 : S1x512.Broadcasts S256x512
  shapeCasts_S512_S1x512 : S512.ShapeCasts S1x512
  shapeCasts_S64_S1x64 : S64.ShapeCasts S1x64
  broadcasts_S1x64_S256x64 : S1x64.Broadcasts S256x64
  slices_S256x2048_o0_256_S256x256 : S256x2048.Slices ![0, 256] S256x256
  slices_S1x2048_o0_256_S1x256 : S1x2048.Slices ![0, 256] S1x256
  slices_S256x2048_o0_512_S256x256 : S256x2048.Slices ![0, 512] S256x256
  slices_S1x2048_o0_512_S1x256 : S1x2048.Slices ![0, 512] S1x256
  slices_S256x2048_o0_768_S256x256 : S256x2048.Slices ![0, 768] S256x256
  slices_S1x2048_o0_768_S1x256 : S1x2048.Slices ![0, 768] S1x256
  slices_S256x2048_o0_1024_S256x256 : S256x2048.Slices ![0, 1024] S256x256
  slices_S1x2048_o0_1024_S1x256 : S1x2048.Slices ![0, 1024] S1x256
  slices_S256x2048_o0_1280_S256x256 : S256x2048.Slices ![0, 1280] S256x256
  slices_S1x2048_o0_1280_S1x256 : S1x2048.Slices ![0, 1280] S1x256
  slices_S256x2048_o0_1536_S256x256 : S256x2048.Slices ![0, 1536] S256x256
  slices_S1x2048_o0_1536_S1x256 : S1x2048.Slices ![0, 1536] S1x256
  slices_S256x2048_o0_1792_S256x256 : S256x2048.Slices ![0, 1792] S256x256
  slices_S1x2048_o0_1792_S1x256 : S1x2048.Slices ![0, 1792] S1x256
  inb_S8x256x2048_S1x256x2048_1_0_0 : ∀ a, (![1, 0, 0] : Fin 3 → Nat) a + S1x256x2048.size a ≤ S8x256x2048.size a
  inb_S8x256x2048_S1x256x2048_2_0_0 : ∀ a, (![2, 0, 0] : Fin 3 → Nat) a + S1x256x2048.size a ≤ S8x256x2048.size a
  inb_S8x256x2048_S1x256x2048_3_0_0 : ∀ a, (![3, 0, 0] : Fin 3 → Nat) a + S1x256x2048.size a ≤ S8x256x2048.size a
  inb_S8x256x2048_S1x256x2048_4_0_0 : ∀ a, (![4, 0, 0] : Fin 3 → Nat) a + S1x256x2048.size a ≤ S8x256x2048.size a
  inb_S8x256x2048_S1x256x2048_5_0_0 : ∀ a, (![5, 0, 0] : Fin 3 → Nat) a + S1x256x2048.size a ≤ S8x256x2048.size a
  inb_S8x256x2048_S1x256x2048_6_0_0 : ∀ a, (![6, 0, 0] : Fin 3 → Nat) a + S1x256x2048.size a ≤ S8x256x2048.size a
  inb_S8x256x2048_S1x256x2048_7_0_0 : ∀ a, (![7, 0, 0] : Fin 3 → Nat) a + S1x256x2048.size a ≤ S8x256x2048.size a
  concatenates_S1x64_S1x64_S1x64_S1x64_S1x64_S1x64_S1x64_S1x64_S8x64_d0 : Shape.Concatenates [S1x64, S1x64, S1x64, S1x64, S1x64, S1x64, S1x64, S1x64] S8x64 0
  inb_S8x64_S8x64_0_0 : ∀ a, (![0, 0] : Fin 2 → Nat) a + S8x64.size a ≤ S8x64.size a
  h_S8x64 : 0 < S8x64.numel
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S1x256_S256x512_S1x512_1_0_0_1_n_n_wf : DotDims.WF S1x256 S256x512 S1x512 [1] [0] [0] [1] [] []
  dot_S256x256_S256x512_S256x512_0_0_1_1_n_n_wf : DotDims.WF S256x256 S256x512 S256x512 [0] [0] [1] [1] [] []
  dot_S256x512_S512x64_S256x64_1_0_0_1_n_n_wf : DotDims.WF S256x512 S512x64 S256x64 [1] [0] [0] [1] [] []
  dot_S1x256_S256x64_S1x64_1_0_0_1_n_n_wf : DotDims.WF S1x256 S256x64 S1x64 [1] [0] [0] [1] [] []
  dot_S64x64_S64x256_S64x256_1_0_0_1_n_n_wf : DotDims.WF S64x64 S64x256 S64x256 [1] [0] [0] [1] [] []
  dot_S64x256_S256x1_S64x1_1_0_0_1_n_n_wf : DotDims.WF S64x256 S256x1 S64x1 [1] [0] [0] [1] [] []
  hrank0 : 0 < grid0.rank
  k0_off1_inb : ∀ i : grid0.Coords, ∀ (r : Fin 8), ∀ a, (k0_off1 i (BitVec.ofNat 32 r.val)) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x2048.size a ≤ S64x256x2048.size a
  hwx0_0 : ∀ i : grid0.Coords, EltTy.bits .f32 = 32 ∨ (Rect.block (s := S64x256x2048) S8x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S64x64.size a
  hwx0_5 : ∀ i : grid0.Coords, EltTy.bits .f32 = 32 ∨ (Rect.block (s := S64x64) S8x64.size (cc0_transform_5 i) (hinb0_5 i)).WholeWords (EltTy.packing .f32)

variable [Facts₀]

def dot_S1x256_S256x512_S1x512_1_0_0_1_n_n : DotDims S1x256 S256x512 S1x512 where
  lhsContracting := [1]
  rhsContracting := [0]
  lhsNonContracting := [0]
  rhsNonContracting := [1]
  lhsBatch := []
  rhsBatch := []
  wf := dot_S1x256_S256x512_S1x512_1_0_0_1_n_n_wf
def dot_S256x256_S256x512_S256x512_0_0_1_1_n_n : DotDims S256x256 S256x512 S256x512 where
  lhsContracting := [0]
  rhsContracting := [0]
  lhsNonContracting := [1]
  rhsNonContracting := [1]
  lhsBatch := []
  rhsBatch := []
  wf := dot_S256x256_S256x512_S256x512_0_0_1_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S1x256_S256x64_S1x64_1_0_0_1_n_n : DotDims S1x256 S256x64 S1x64 where
  lhsContracting := [1]
  rhsContracting := [0]
  lhsNonContracting := [0]
  rhsNonContracting := [1]
  lhsBatch := []
  rhsBatch := []
  wf := dot_S1x256_S256x64_S1x64_1_0_0_1_n_n_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev spec0_0 : Pipeline.WinSpec sig grid0.rank :=
  Pipeline.WinSpec.ofSpec (Memref.whole main_arg0) S8x256x2048.size reads0_0 false false 2 stage0_0 sem0_0 nbuf0_0 hstage0_0

abbrev spec0_1 : Pipeline.WinSpec sig grid0.rank :=
  Pipeline.WinSpec.ofSpec (Memref.whole main_arg2) S512x512.size reads0_1 false true 1 stage0_1 sem0_1 nbuf0_1 hstage0_1

abbrev spec0_2 : Pipeline.WinSpec sig grid0.rank :=
  Pipeline.WinSpec.ofSpec (Memref.whole main_arg3) S512.size reads0_2 false true 1 stage0_2 sem0_2 nbuf0_2 hstage0_2

abbrev spec0_3 : Pipeline.WinSpec sig grid0.rank :=
  Pipeline.WinSpec.ofSpec (Memref.whole main_arg4) S512x64.size reads0_3 false true 1 stage0_3 sem0_3 nbuf0_3 hstage0_3

abbrev spec0_4 : Pipeline.WinSpec sig grid0.rank :=
  Pipeline.WinSpec.ofSpec (Memref.whole main_arg5) S64.size reads0_4 false true 1 stage0_4 sem0_4 nbuf0_4 hstage0_4

abbrev spec0_5 : Pipeline.WinSpec sig grid0.rank :=
  Pipeline.WinSpec.ofSpec (Memref.whole main_v0) S8x64.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S64x256x2048 : Shape := ⟨3, ![64, 256, 2048]⟩
abbrev S64 : Shape := ⟨1, ![64]⟩
abbrev S512x512 : Shape := ⟨2, ![512, 512]⟩
abbrev S512 : Shape := ⟨1, ![512]⟩
abbrev S512x64 : Shape := ⟨2, ![512, 64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S2048 : Shape := ⟨1, ![2048]⟩
abbrev S1x2048 : Shape := ⟨2, ![1, 2048]⟩
abbrev S64x1 : Shape := ⟨2, ![64, 1]⟩
abbrev S64x2048 : Shape := ⟨2, ![64, 2048]⟩
abbrev S64x1x2048 : Shape := ⟨3, ![64, 1, 2048]⟩
abbrev S_ : Shape := ⟨0, ![]⟩
abbrev S64x2048x256 : Shape := ⟨3, ![64, 2048, 256]⟩
abbrev S64x1x256 : Shape := ⟨3, ![64, 1, 256]⟩
abbrev S64x2048x512 : Shape := ⟨3, ![64, 2048, 512]⟩
abbrev S1x1x512 : Shape := ⟨3, ![1, 1, 512]⟩
abbrev S64x2048x64 : Shape := ⟨3, ![64, 2048, 64]⟩
abbrev S1x1x64 : Shape := ⟨3, ![1, 1, 64]⟩
abbrev S64x2048x1 : Shape := ⟨3, ![64, 2048, 1]⟩
abbrev S64x64 : Shape := ⟨2, ![64, 64]⟩
abbrev S1x256 : Shape := ⟨2, ![1, 256]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S64x256x2048, .f32⟩
  | .hbm, ⟨1, _⟩ => ⟨S64, .i32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S2048, .i32⟩
  | .hbm, ⟨11, _⟩ => ⟨S1x2048, .i32⟩
  | .hbm, ⟨12, _⟩ => ⟨S64x1, .i32⟩
  | .hbm, ⟨13, _⟩ => ⟨S64x2048, .i32⟩
  | .hbm, ⟨14, _⟩ => ⟨S64x2048, .i32⟩
  | .hbm, ⟨15, _⟩ => ⟨S64x2048, .i1⟩
  | .hbm, ⟨16, _⟩ => ⟨S64x2048, .f32⟩
  | .hbm, ⟨17, _⟩ => ⟨S64x1x2048, .f32⟩
  | .hbm, ⟨18, _⟩ => ⟨S64x256x2048, .f32⟩
  | .hbm, ⟨19, _⟩ => ⟨S64x256x2048, .f32⟩
  | .hbm, ⟨20, _⟩ => ⟨S_, .f32⟩
  | .hbm, ⟨21, _⟩ => ⟨S64x256, .f32⟩
  | .hbm, ⟨22, _⟩ => ⟨S64x2048x256, .f32⟩
  | .hbm, ⟨23, _⟩ => ⟨S64x1x256, .f32⟩
  | .hbm, ⟨24, _⟩ => ⟨S64x2048x256, .f32⟩
  | .hbm, ⟨25, _⟩ => ⟨S64x2048x512, .f32⟩
  | .hbm, ⟨26, _⟩ => ⟨S64x2048x512, .f32⟩
  | .hbm, ⟨27, _⟩ => ⟨S1x1x512, .f32⟩
  | .hbm, ⟨28, _⟩ => ⟨S64x2048x512, .f32⟩
  | .hbm, ⟨29, _⟩ => ⟨S64x2048x512, .f32⟩
  | .hbm, ⟨30, _⟩ => ⟨S_, .f32⟩
  | .hbm, ⟨31, _⟩ => ⟨S64x2048x512, .f32⟩
  | .hbm, ⟨32, _⟩ => ⟨S64x2048x512, .f32⟩
  | .hbm, ⟨33, _⟩ => ⟨S64x2048x64, .f32⟩
  | .hbm, ⟨34, _⟩ => ⟨S1x1x64, .f32⟩
  | .hbm, ⟨35, _⟩ => ⟨S64x2048x64, .f32⟩
  | .hbm, ⟨36, _⟩ => ⟨S64x2048x64, .f32⟩
  | .hbm, ⟨37, _⟩ => ⟨S_, .f32⟩
  | .hbm, ⟨38, _⟩ => ⟨S64x2048x64, .f32⟩
  | .hbm, ⟨39, _⟩ => ⟨S64x2048x64, .f32⟩
  | .hbm, ⟨40, _⟩ => ⟨S64x2048x1, .f32⟩
  | .hbm, ⟨41, _⟩ => ⟨S64x2048x64, .f32⟩
  | .hbm, ⟨42, _⟩ => ⟨S64x2048x64, .f32⟩
  | .hbm, ⟨43, _⟩ => ⟨S_, .f32⟩
  | .hbm, ⟨44, _⟩ => ⟨S64x64, .f32⟩
  | .hbm, ⟨45, _⟩ => ⟨S64x256, .f32⟩
  | .hbm, ⟨46, _⟩ => ⟨S1x256, .f32⟩
  | .hbm, ⟨47, _⟩ => ⟨S64x256, .f32⟩
  | .hbm, ⟨48, _⟩ => ⟨S64x256, .f32⟩
  | .hbm, ⟨49, _⟩ => ⟨S_, .f32⟩
  | .hbm, ⟨50, _⟩ => ⟨S64x256, .f32⟩
  | .hbm, ⟨51, _⟩ => ⟨S64x256, .f32⟩
  | .hbm, ⟨52, _⟩ => ⟨S64x1, .f32⟩
  | .hbm, ⟨53, _⟩ => ⟨S1x1, .f32⟩
  | .hbm, ⟨54, _⟩ => ⟨S64x1, .f32⟩
  | .hbm, ⟨55, _⟩ => ⟨S64x1, .f32⟩
  | .hbm, ⟨56, _⟩ => ⟨S64, .f32⟩
  | _, _ => ⟨S64x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_cst : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call2_cst : Ref sig .tc := ⟨.hbm, 49, rfl⟩
abbrev main_call2_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S64_S64x1_0 : S64.BroadcastsInDim S64x1 (![0] : Fin 1 → Fin S64x1.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  bcast_S64x2048_S64x1x2048_0_2 : S64x2048.BroadcastsInDim S64x1x2048 (![0, 2] : Fin 2 → Fin S64x1x2048.rank)
  bcast_S64x1x2048_S64x256x2048_0_1_2 : S64x1x2048.BroadcastsInDim S64x256x2048 (![0, 1, 2] : Fin 3 → Fin S64x256x2048.rank)
  reducesTo_S64x256x2048_S64x256_d2 : S64x256x2048.ReducesTo [2] S64x256
  h_S_ : 0 < S_.numel
  transposes_S64x256x2048_S64x2048x256_0_2_1 : S64x256x2048.Transposes [0, 2, 1] S64x2048x256
  bcast_S64x256_S64x1x256_0_2 : S64x256.BroadcastsInDim S64x1x256 (![0, 2] : Fin 2 → Fin S64x1x256.rank)
  bcast_S64x1x256_S64x2048x256_0_1_2 : S64x1x256.BroadcastsInDim S64x2048x256 (![0, 1, 2] : Fin 3 → Fin S64x2048x256.rank)
  concatenates_S64x2048x256_S64x2048x256_S64x2048x512_d2 : Shape.Concatenates [S64x2048x256, S64x2048x256] S64x2048x512 2
  bcast_S512_S1x1x512_2 : S512.BroadcastsInDim S1x1x512 (![2] : Fin 1 → Fin S1x1x512.rank)
  bcast_S1x1x512_S64x2048x512_0_1_2 : S1x1x512.BroadcastsInDim S64x2048x512 (![0, 1, 2] : Fin 3 → Fin S64x2048x512.rank)
  bcast_S_S64x2048x512 : S_.BroadcastsInDim S64x2048x512 (![] : Fin 0 → Fin S64x2048x512.rank)
  bcast_S64_S1x1x64_2 : S64.BroadcastsInDim S1x1x64 (![2] : Fin 1 → Fin S1x1x64.rank)
  bcast_S1x1x64_S64x2048x64_0_1_2 : S1x1x64.BroadcastsInDim S64x2048x64 (![0, 1, 2] : Fin 3 → Fin S64x2048x64.rank)
  bcast_S_S64x2048x64 : S_.BroadcastsInDim S64x2048x64 (![] : Fin 0 → Fin S64x2048x64.rank)
  bcast_S64x2048_S64x2048x1_0_1 : S64x2048.BroadcastsInDim S64x2048x1 (![0, 1] : Fin 2 → Fin S64x2048x1.rank)
  bcast_S64x2048x1_S64x2048x64_0_1_2 : S64x2048x1.BroadcastsInDim S64x2048x64 (![0, 1, 2] : Fin 3 → Fin S64x2048x64.rank)
  reducesTo_S64x2048x64_S64x64_d1 : S64x2048x64.ReducesTo [1] S64x64
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S64x2048x512_S512x512_S64x2048x512_2_0_01_1_n_n_wf : DotDims.WF S64x2048x512 S512x512 S64x2048x512 [2] [0] [0, 1] [1] [] []
  dot_S64x2048x512_S512x64_S64x2048x64_2_0_01_1_n_n_wf : DotDims.WF S64x2048x512 S512x64 S64x2048x64 [2] [0] [0, 1] [1] [] []
  dot_S64x64_S64x256_S64x256_1_0_0_1_n_n_wf : DotDims.WF S64x64 S64x256 S64x256 [1] [0] [0] [1] [] []
  dot_S64x256_S256x1_S64x1_1_0_0_1_n_n_wf : DotDims.WF S64x256 S256x1 S64x1 [1] [0] [0] [1] [] []

variable [Facts₀]

def dot_S64x2048x512_S512x512_S64x2048x512_2_0_01_1_n_n : DotDims S64x2048x512 S512x512 S64x2048x512 where
  lhsContracting := [2]
  rhsContracting := [0]
  lhsNonContracting := [0, 1]
  rhsNonContracting := [1]
  lhsBatch := []
  rhsBatch := []
  wf := dot_S64x2048x512_S512x512_S64x2048x512_2_0_01_1_n_n_wf
def dot_S64x2048x512_S512x64_S64x2048x64_2_0_01_1_n_n : DotDims S64x2048x512 S512x64 S64x2048x64 where
  lhsContracting := [2]
  rhsContracting := [0]
  lhsNonContracting := [0, 1]
  rhsNonContracting := [1]
  lhsBatch := []
  rhsBatch := []
  wf := dot_S64x2048x512_S512x64_S64x2048x64_2_0_01_1_n_n_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.KSpec.lean ====
/-
  The encoder kernel's arithmetic for one sample and for one block of eight samples, as vector-level functions of what
  the body loads: the two halves of the first layer's weights, the second layer's weights, the two biases, a sample's
  length word and its table. A sample's code is accumulated over eight chunks of 256 columns; a block is the eight
  samples' codes stacked.
-/
import proofs.«431164_j65386582114982_1_alg».proof.Proof.Gen.KernelIdeal

noncomputable section

namespace Cert.KernelIdeal.Enc

open Idealize.ShloMosaic Cert.KernelIdeal Cert.KernelIdeal.Facts₀

variable {F : FTy → Type} [FloatOps F]

/-- A sample's column mask: 1 where the column number is below the length word (signed), else 0. -/
def maskRow (len : Elt F .i32) : FVec F S1x2048 .f32 :=
  sitofp .f32 (extui 32 (cmpi .slt (iota .tc S1x2048 32 [1] iota_S1x2048_d1_w32) (broadcast S1x2048 len)) natLt_1_32)

/-- The sample's table with the invalid columns zeroed. -/
def umRow (len : Elt F .i32) (urow : Vec F S1x256x2048 .f32) : FVec F S256x2048 .f32 :=
  mulf (shapeCast S256x2048 urow shapeCasts_S1x256x2048_S256x2048) (broadcastTo S256x2048 (maskRow len) broadcasts_S1x2048_S256x2048)

/-- The masked table's row sums through the lower half of the first layer. -/
def wbRow (W1b : Vec F S256x512 .f32) (um : FVec F S256x2048 .f32) : FVec F S1x512 .f32 :=
  matmul dot_S1x256_S256x512_S1x512_1_0_0_1_n_n none
    (shapeCast S1x256 (truncf .bf16 (multiReduction .add [1] S256 um 0x00000000#32 reduces_S256x2048_S256 (.inl rfl) rfl) bitsLt_bf16_f32) shapeCasts_S256_S1x256)
    (truncf .bf16 W1b bitsLt_bf16_f32) (constant S1x512 .f32 0x00000000#32)

/-- One chunk of 256 columns starting at column `off 1`: the chunk's columns through both layers, summed under the mask. -/
def chunkZ (off : Fin 2 → ℕ) (hsu : S256x2048.Slices off S256x256) (hsm : S1x2048.Slices off S1x256)
    (W1a : Vec F S256x512 .f32) (W2 : Vec F S512x64 .f32) (b1 : Vec F S512 .f32) (b2 : Vec F S64 .f32)
    (mask : FVec F S1x2048 .f32) (um : FVec F S256x2048 .f32) (wb : FVec F S1x512 .f32) : FVec F S1x64 .f32 :=
  matmul dot_S1x256_S256x64_S1x64_1_0_0_1_n_n none
    (truncf .bf16 (extractStridedSlice S1x256 off mask hsm) bitsLt_bf16_f32)
    (truncf .bf16 (maximumf (addf (matmul dot_S256x512_S512x64_S256x64_1_0_0_1_n_n none
        (truncf .bf16 (maximumf (addf (addf (matmul dot_S256x256_S256x512_S256x512_0_0_1_1_n_n none
              (truncf .bf16 (extractStridedSlice S256x256 off um hsu) bitsLt_bf16_f32) (truncf .bf16 W1a bitsLt_bf16_f32) (constant S256x512 .f32 0x00000000#32))
            (broadcastTo S256x512 wb broadcasts_S1x512_S256x512))
          (broadcastTo S256x512 (shapeCast S1x512 b1 shapeCasts_S512_S1x512) broadcasts_S1x512_S256x512))
          (broadcast S256x512 (Scalar.ofBits .f32 0x00000000#32))) bitsLt_bf16_f32)
        (truncf .bf16 W2 bitsLt_bf16_f32) (constant S256x64 .f32 0x00000000#32))
      (broadcastTo S256x64 (shapeCast S1x64 b2 shapeCasts_S64_S1x64) broadcasts_S1x64_S256x64))
      (broadcast S256x64 (Scalar.ofBits .f32 0x00000000#32))) bitsLt_bf16_f32)
    (constant S1x64 .f32 0x00000000#32)

/-- The eight chunks accumulated from zero, left to right. -/
def rowAcc (W1a : Vec F S256x512 .f32) (W2 : Vec F S512x64 .f32) (b1 : Vec F S512 .f32) (b2 : Vec F S64 .f32)
    (mask : FVec F S1x2048 .f32) (um : FVec F S256x2048 .f32) (wb : FVec F S1x512 .f32) : FVec F S1x64 .f32 :=
  (addf (addf (addf (addf (addf (addf (addf (addf (broadcast S1x64 (Scalar.ofBits .f32 0x00000000#32))
      (chunkZ ![0, 0] slices_S256x2048_o0_0_S256x256 slices_S1x2048_o0_0_S1x256 W1a W2 b1 b2 mask um wb))
      (chunkZ ![0, 256] slices_S256x2048_o0_256_S256x256 slices_S1x2048_o0_256_S1x256 W1a W2 b1 b2 mask um wb))
      (chunkZ ![0, 512] slices_S256x2048_o0_512_S256x256 slices_S1x2048_o0_512_S1x256 W1a W2 b1 b2 mask um wb))
      (chunkZ ![0, 768] slices_S256x2048_o0_768_S256x256 slices_S1x2048_o0_768_S1x256 W1a W2 b1 b2 mask um wb))
      (chunkZ ![0, 1024] slices_S256x2048_o0_1024_S256x256 slices_S1x2048_o0_1024_S1x256 W1a W2 b1 b2 mask um wb))
      (chunkZ ![0, 1280] slices_S256x2048_o0_1280_S256x256 slices_S1x2048_o0_1280_S1x256 W1a W2 b1 b2 mask um wb))
      (chunkZ ![0, 1536] slices_S256x2048_o0_1536_S256x256 slices_S1x2048_o0_1536_S1x256 W1a W2 b1 b2 mask um wb))
      (chunkZ ![0, 1792] slices_S256x2048_o0_1792_S256x256 slices_S1x2048_o0_1792_S1x256 W1a W2 b1 b2 mask um wb))

/-- One sample's code. -/
def rowEnc (W1a W1b : Vec F S256x512 .f32) (W2 : Vec F S512x64 .f32) (b1 : Vec F S512 .f32) (b2 : Vec F S64 .f32)
    (len : Elt F .i32) (urow : Vec F S1x256x2048 .f32) : FVec F S1x64 .f32 :=
  rowAcc W1a W2 b1 b2 (maskRow len) (umRow len urow) (wbRow W1b (umRow len urow))

/-- A block of eight samples' codes, stacked. -/
def encBlock (W1a W1b : Vec F S256x512 .f32) (W2 : Vec F S512x64 .f32) (b1 : Vec F S512 .f32) (b2 : Vec F S64 .f32)
    (l0 l1 l2 l3 l4 l5 l6 l7 : Elt F .i32) (u0 u1 u2 u3 u4 u5 u6 u7 : Vec F S1x256x2048 .f32) : FVec F S8x64 .f32 :=
  concatenate S8x64 0 [⟨S1x64, rowEnc W1a W1b W2 b1 b2 l0 u0⟩, ⟨S1x64, rowEnc W1a W1b W2 b1 b2 l1 u1⟩, ⟨S1x64, rowEnc W1a W1b W2 b1 b2 l2 u2⟩, ⟨S1x64, rowEnc W1a W1b W2 b1 b2 l3 u3⟩, ⟨S1x64, rowEnc W1a W1b W2 b1 b2 l4 u4⟩, ⟨S1x64, rowEnc W1a W1b W2 b1 b2 l5 u5⟩, ⟨S1x64, rowEnc W1a W1b W2 b1 b2 l6 u6⟩, ⟨S1x64, rowEnc W1a W1b W2 b1 b2 l7 u7⟩] concatenates_S1x64_S1x64_S1x64_S1x64_S1x64_S1x64_S1x64_S1x64_S8x64_d0

end Cert.KernelIdeal.Enc

end
-- ==== Proof.KPiece.lean ====
/-
  What the kernel body leaves in its output block: the block of eight samples' codes (`Enc.encBlock`) of what the body
  loads — the two halves of the first layer's weights, the other weights and biases whole, each sample's length word
  from the table of lengths and each sample's table from the block of tables.
-/
import proofs.«431164_j65386582114982_1_alg».proof.Proof.Gen.KernelIdeal.Frame
import proofs.«431164_j65386582114982_1_alg».proof.Proof.KSpec
import Idealize.ShloMosaic.Lib.Pipeline.Value

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem zeros2 : (![0, 0] : Fin 2 → Nat) = fun _ => 0 := by funext a; fin_cases a <;> rfl
theorem zeros1 : (![0] : Fin 1 → Nat) = fun _ => 0 := by funext a; fin_cases a <;> rfl

set_option maxHeartbeats 4000000 in
/-- The output block after the body, as the stacked codes of the eight samples of the block. -/
theorem out0_A_5_eq (c : Dev nD) (i : grid0.Coords) (arg2 : Memref sig .tc .vmem S8x256x2048 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x64 .f32) (harg5 : arg5.IsWhole) (arg6 : Memref sig .tc .vmem S64 .f32) (harg6 : arg6.IsWhole) (arg7 : Memref sig .tc .vmem S8x64 .f32) (harg7 : arg7.IsWhole)
    (x0 : Vec F S8x256x2048 .f32) (x1 : Vec F S512x512 .f32) (x2 : Vec F S512 .f32) (x3 : Vec F S512x64 .f32) (x4 : Vec F S64 .f32) (xt0 : TbBuf0 (F := F) c tbM0_0) :
    out0_A_5 c i arg2 harg2 arg3 harg3 arg4 harg4 arg5 harg5 arg6 harg6 arg7 harg7 x0 x1 x2 x3 x4 xt0 =
      Enc.encBlock (View.ld x1 (Rect.unit ![0, 0] ![256, 512] inb_S512x512_S256x512_0_0)) (View.ld x1 (Rect.unit ![256, 0] ![256, 512] inb_S512x512_S256x512_256_0)) x3 x2 x4
      (View.ld (View.read (Elt F) (View.whole main_arg1) xt0) (Rect.unit (k0_off1 i 0#32) ![1] (k0_off1_inb i 0)) (Shape.Idx.first (numel1_S1.symm ▸ Nat.one_pos)))
      (View.ld (View.read (Elt F) (View.whole main_arg1) xt0) (Rect.unit (k0_off1 i 1#32) ![1] (k0_off1_inb i 1)) (Shape.Idx.first (numel1_S1.symm ▸ Nat.one_pos)))
      (View.ld (View.read (Elt F) (View.whole main_arg1) xt0) (Rect.unit (k0_off1 i 2#32) ![1] (k0_off1_inb i 2)) (Shape.Idx.first (numel1_S1.symm ▸ Nat.one_pos)))
      (View.ld (View.read (Elt F) (View.whole main_arg1) xt0) (Rect.unit (k0_off1 i 3#32) ![1] (k0_off1_inb i 3)) (Shape.Idx.first (numel1_S1.symm ▸ Nat.one_pos)))
      (View.ld (View.read (Elt F) (View.whole main_arg1) xt0) (Rect.unit (k0_off1 i 4#32) ![1] (k0_off1_inb i 4)) (Shape.Idx.first (numel1_S1.symm ▸ Nat.one_pos)))
      (View.ld (View.read (Elt F) (View.whole main_arg1) xt0) (Rect.unit (k0_off1 i 5#32) ![1] (k0_off1_inb i 5)) (Shape.Idx.first (numel1_S1.symm ▸ Nat.one_pos)))
      (View.ld (View.read (Elt F) (View.whole main_arg1) xt0) (Rect.unit (k0_off1 i 6#32) ![1] (k0_off1_inb i 6)) (Shape.Idx.first (numel1_S1.symm ▸ Nat.one_pos)))
      (View.ld (View.read (Elt F) (View.whole main_arg1) xt0) (Rect.unit (k0_off1 i 7#32) ![1] (k0_off1_inb i 7)) (Shape.Idx.first (numel1_S1.symm ▸ Nat.one_pos)))
      (View.ld x0 (Rect.unit ![0, 0, 0] ![1, 256, 2048] inb_S8x256x2048_S1x256x2048_0_0_0))
      (View.ld x0 (Rect.unit ![1, 0, 0] ![1, 256, 2048] inb_S8x256x2048_S1x256x2048_1_0_0))
      (View.ld x0 (Rect.unit ![2, 0, 0] ![1, 256, 2048] inb_S8x256x2048_S1x256x2048_2_0_0))
      (View.ld x0 (Rect.unit ![3, 0, 0] ![1, 256, 2048] inb_S8x256x2048_S1x256x2048_3_0_0))
      (View.ld x0 (Rect.unit ![4, 0, 0] ![1, 256, 2048] inb_S8x256x2048_S1x256x2048_4_0_0))
      (View.ld x0 (Rect.unit ![5, 0, 0] ![1, 256, 2048] inb_S8x256x2048_S1x256x2048_5_0_0))
      (View.ld x0 (Rect.unit ![6, 0, 0] ![1, 256, 2048] inb_S8x256x2048_S1x256x2048_6_0_0))
      (View.ld x0 (Rect.unit ![7, 0, 0] ![1, 256, 2048] inb_S8x256x2048_S1x256x2048_7_0_0)) := by
  unfold out0_A_5
  rw [View.read_writes_eq_canon _ _ _ (cover0_A_5 c i arg2 harg2 arg3 harg3 arg4 harg4 arg5 harg5 arg6 harg6 arg7 harg7 x0 x1 x2 x3 x4 xt0)]
  unfold kernelRun0_A
  dsimp only
  sl_unfold_run_names
  rw [View.canon_unit_zero zeros2]
  simp only [View.readAt_eq_ld, harg2.read_unread, harg3.read_unread, harg4.read_unread, harg5.read_unread, harg6.read_unread, View.ld_unit_zero (S := S512x64) zeros2, View.ld_unit_zero (S := S512) zeros1, View.ld_unit_zero (S := S64) zeros1]
  rfl

end Cert.KernelIdeal.Gen

end
-- ==== Proof.KBlock.lean ====
/-
  A block of eight samples' codes read at an entry: row `r` of the stack is sample `r`'s code.
-/
import proofs.«431164_j65386582114982_1_alg».proof.Proof.KSpec
import Idealize.ShloMosaic.Lib.ValueIdx
import Idealize.ShloMosaic.Lib.Pipeline.Value

noncomputable section

namespace Cert.KernelIdeal.Enc

open Idealize.ShloMosaic Idealize.ShloMosaic.ValueIdx Cert.KernelIdeal

variable {F : FTy → Type} [FloatOps F]

theorem encBlock_row0 (W1a W1b : Vec F S256x512 .f32) (W2 : Vec F S512x64 .f32) (b1 : Vec F S512 .f32) (b2 : Vec F S64 .f32)
    (l0 l1 l2 l3 l4 l5 l6 l7 : Elt F .i32) (u0 u1 u2 u3 u4 u5 u6 u7 : Vec F S1x256x2048 .f32) (z : Fin 64) :
    encBlock W1a W1b W2 b1 b2 l0 l1 l2 l3 l4 l5 l6 l7 u0 u1 u2 u3 u4 u5 u6 u7 (ix2 (0 : Fin 8) z)
      = rowEnc W1a W1b W2 b1 b2 l0 u0 (ix2 0 z) := by
  unfold encBlock
  refine concatenate_apply_piece (0 : Fin 2) _ _ (ix2 (0 : Fin 8) z) 0 ?hk S1x64 _ ?hxk rfl 0 ?hpre (ix2 0 z) ?hi ?ha
  case hk => exact (by decide : (0 : ℕ) < 8)
  case hxk => rfl
  case hpre => rfl
  case hi => intro b hb; match b with | ⟨0, _⟩ => exact absurd rfl hb | ⟨1, _⟩ => rfl
  case ha => rfl

theorem encBlock_row1 (W1a W1b : Vec F S256x512 .f32) (W2 : Vec F S512x64 .f32) (b1 : Vec F S512 .f32) (b2 : Vec F S64 .f32)
    (l0 l1 l2 l3 l4 l5 l6 l7 : Elt F .i32) (u0 u1 u2 u3 u4 u5 u6 u7 : Vec F S1x256x2048 .f32) (z : Fin 64) :
    encBlock W1a W1b W2 b1 b2 l0 l1 l2 l3 l4 l5 l6 l7 u0 u1 u2 u3 u4 u5 u6 u7 (ix2 (1 : Fin 8) z)
      = rowEnc W1a W1b W2 b1 b2 l1 u1 (ix2 0 z) := by
  unfold encBlock
  refine concatenate_apply_piece (0 : Fin 2) _ _ (ix2 (1 : Fin 8) z) 1 ?hk S1x64 _ ?hxk rfl 1 ?hpre (ix2 0 z) ?hi ?ha
  case hk => exact (by decide : (1 : ℕ) < 8)
  case hxk => rfl
  case hpre => rfl
  case hi => intro b hb; match b with | ⟨0, _⟩ => exact absurd rfl hb | ⟨1, _⟩ => rfl
  case ha => rfl

theorem encBlock_row2 (W1a W1b : Vec F S256x512 .f32) (W2 : Vec F S512x64 .f32) (b1 : Vec F S512 .f32) (b2 : Vec F S64 .f32)
    (l0 l1 l2 l3 l4 l5 l6 l7 : Elt F .i32) (u0 u1 u2 u3 u4 u5 u6 u7 : Vec F S1x256x2048 .f32) (z : Fin 64) :
    encBlock W1a W1b W2 b1 b2 l0 l1 l2 l3 l4 l5 l6 l7 u0 u1 u2 u3 u4 u5 u6 u7 (ix2 (2 : Fin 8) z)
      = rowEnc W1a W1b W2 b1 b2 l2 u2 (ix2 0 z) := by
  unfold encBlock
  refine concatenate_apply_piece (0 : Fin 2) _ _ (ix2 (2 : Fin 8) z) 2 ?hk S1x64 _ ?hxk rfl 2 ?hpre (ix2 0 z) ?hi ?ha
  case hk => exact (by decide : (2 : ℕ) < 8)
  case hxk => rfl
  case hpre => rfl
  case hi => intro b hb; match b with | ⟨0, _⟩ => exact absurd rfl hb | ⟨1, _⟩ => rfl
  case ha => rfl

theorem encBlock_row3 (W1a W1b : Vec F S256x512 .f32) (W2 : Vec F S512x64 .f32) (b1 : Vec F S512 .f32) (b2 : Vec F S64 .f32)
    (l0 l1 l2 l3 l4 l5 l6 l7 : Elt F .i32) (u0 u1 u2 u3 u4 u5 u6 u7 : Vec F S1x256x2048 .f32) (z : Fin 64) :
    encBlock W1a W1b W2 b1 b2 l0 l1 l2 l3 l4 l5 l6 l7 u0 u1 u2 u3 u4 u5 u6 u7 (ix2 (3 : Fin 8) z)
      = rowEnc W1a W1b W2 b1 b2 l3 u3 (ix2 0 z) := by
  unfold encBlock
  refine concatenate_apply_piece (0 : Fin 2) _ _ (ix2 (3 : Fin 8) z) 3 ?hk S1x64 _ ?hxk rfl 3 ?hpre (ix2 0 z) ?hi ?ha
  case hk => exact (by decide : (3 : ℕ) < 8)
  case hxk => rfl
  case hpre => rfl
  case hi => intro b hb; match b with | ⟨0, _⟩ => exact absurd rfl hb | ⟨1, _⟩ => rfl
  case ha => rfl

theorem encBlock_row4 (W1a W1b : Vec F S256x512 .f32) (W2 : Vec F S512x64 .f32) (b1 : Vec F S512 .f32) (b2 : Vec F S64 .f32)
    (l0 l1 l2 l3 l4 l5 l6 l7 : Elt F .i32) (u0 u1 u2 u3 u4 u5 u6 u7 : Vec F S1x256x2048 .f32) (z : Fin 64) :
    encBlock W1a W1b W2 b1 b2 l0 l1 l2 l3 l4 l5 l6 l7 u0 u1 u2 u3 u4 u5 u6 u7 (ix2 (4 : Fin 8) z)
      = rowEnc W1a W1b W2 b1 b2 l4 u4 (ix2 0 z) := by
  unfold encBlock
  refine concatenate_apply_piece (0 : Fin 2) _ _ (ix2 (4 : Fin 8) z) 4 ?hk S1x64 _ ?hxk rfl 4 ?hpre (ix2 0 z) ?hi ?ha
  case hk => exact (by decide : (4 : ℕ) < 8)
  case hxk => rfl
  case hpre => rfl
  case hi => intro b hb; match b with | ⟨0, _⟩ => exact absurd rfl hb | ⟨1, _⟩ => rfl
  case ha => rfl

theorem encBlock_row5 (W1a W1b : Vec F S256x512 .f32) (W2 : Vec F S512x64 .f32) (b1 : Vec F S512 .f32) (b2 : Vec F S64 .f32)
    (l0 l1 l2 l3 l4 l5 l6 l7 : Elt F .i32) (u0 u1 u2 u3 u4 u5 u6 u7 : Vec F S1x256x2048 .f32) (z : Fin 64) :
    encBlock W1a W1b W2 b1 b2 l0 l1 l2 l3 l4 l5 l6 l7 u0 u1 u2 u3 u4 u5 u6 u7 (ix2 (5 : Fin 8) z)
      = rowEnc W1a W1b W2 b1 b2 l5 u5 (ix2 0 z) := by
  unfold encBlock
  refine concatenate_apply_piece (0 : Fin 2) _ _ (ix2 (5 : Fin 8) z) 5 ?hk S1x64 _ ?hxk rfl 5 ?hpre (ix2 0 z) ?hi ?ha
  case hk => exact (by decide : (5 : ℕ) < 8)
  case hxk => rfl
  case hpre => rfl
  case hi => intro b hb; match b with | ⟨0, _⟩ => exact absurd rfl hb | ⟨1, _⟩ => rfl
  case ha => rfl

theorem encBlock_row6 (W1a W1b : Vec F S256x512 .f32) (W2 : Vec F S512x64 .f32) (b1 : Vec F S512 .f32) (b2 : Vec F S64 .f32)
    (l0 l1 l2 l3 l4 l5 l6 l7 : Elt F .i32) (u0 u1 u2 u3 u4 u5 u6 u7 : Vec F S1x256x2048 .f32) (z : Fin 64) :
    encBlock W1a W1b W2 b1 b2 l0 l1 l2 l3 l4 l5 l6 l7 u0 u1 u2 u3 u4 u5 u6 u7 (ix2 (6 : Fin 8) z)
      = rowEnc W1a W1b W2 b1 b2 l6 u6 (ix2 0 z) := by
  unfold encBlock
  refine concatenate_apply_piece (0 : Fin 2) _ _ (ix2 (6 : Fin 8) z) 6 ?hk S1x64 _ ?hxk rfl 6 ?hpre (ix2 0 z) ?hi ?ha
  case hk => exact (by decide : (6 : ℕ) < 8)
  case hxk => rfl
  case hpre => rfl
  case hi => intro b hb; match b with | ⟨0, _⟩ => exact absurd rfl hb | ⟨1, _⟩ => rfl
  case ha => rfl

theorem encBlock_row7 (W1a W1b : Vec F S256x512 .f32) (W2 : Vec F S512x64 .f32) (b1 : Vec F S512 .f32) (b2 : Vec F S64 .f32)
    (l0 l1 l2 l3 l4 l5 l6 l7 : Elt F .i32) (u0 u1 u2 u3 u4 u5 u6 u7 : Vec F S1x256x2048 .f32) (z : Fin 64) :
    encBlock W1a W1b W2 b1 b2 l0 l1 l2 l3 l4 l5 l6 l7 u0 u1 u2 u3 u4 u5 u6 u7 (ix2 (7 : Fin 8) z)
      = rowEnc W1a W1b W2 b1 b2 l7 u7 (ix2 0 z) := by
  unfold encBlock
  refine concatenate_apply_piece (0 : Fin 2) _ _ (ix2 (7 : Fin 8) z) 7 ?hk S1x64 _ ?hxk rfl 7 ?hpre (ix2 0 z) ?hi ?ha
  case hk => exact (by decide : (7 : ℕ) < 8)
  case hxk => rfl
  case hpre => rfl
  case hi => intro b hb; match b with | ⟨0, _⟩ => exact absurd rfl hb | ⟨1, _⟩ => rfl
  case ha => rfl

end Cert.KernelIdeal.Enc

end
-- ==== Proof.Spec.lean ====
/-
  The encoder's result, index by index, on the extended reals.

  One sample has a length word `len` and a table `u` of 256 feature rows by 2048 columns. Column `s` is valid when
  `s < len` as signed words; `ind len s` is 1 there and 0 elsewhere. The masked table is `u · ind`, its row sums are
  `w`; the hidden layer at column `s` is `relu (Σ_i um[i,s]·W1a[i,h] + Σ_i w[i]·W1b[i,h] + b1[h])`, the code at column
  `s` is `relu (Σ_h hid[s,h]·W2[h,z] + b2[z])`, and the sample's encoding is the sum over the valid columns of the code.
  `W1a` and `W1b` are the upper and lower halves of the first layer's weights.
-/
import Idealize.ShloMosaic.PureOps.Ideal
import Idealize.ShloMosaic.Lib.ValueIdx

noncomputable section

open scoped BigOperators

namespace Cert.Enc

open Idealize.ShloMosaic Idealize.ShloMosaic.ValueIdx

/-- The validity of column `s` for a sample of length word `len`, as an extended real: 1 when `s < len` (signed), else 0. -/
def ind (len : BitVec 32) (s : Fin 2048) : EReal :=
  (((IntOp.cmpi .slt (BitVec.ofNat 32 s.val) len).toNat : ℝ) : EReal)

section Row

variable (W1a W1b : (⟨2, ![256, 512]⟩ : Shape).Idx → EReal) (W2 : (⟨2, ![512, 64]⟩ : Shape).Idx → EReal)
  (b1 : (⟨1, ![512]⟩ : Shape).Idx → EReal) (b2 : (⟨1, ![64]⟩ : Shape).Idx → EReal)
  (len : BitVec 32) (urow : (⟨3, ![1, 256, 2048]⟩ : Shape).Idx → EReal)

/-- The masked table. -/
def umI (i : Fin 256) (s : Fin 2048) : EReal := urow (ix3 0 i s) * ind len s
/-- Its row sums. -/
def wI (i : Fin 256) : EReal := ∑ s : Fin 2048, umI len urow i s
/-- The row sums through the lower half of the first layer. -/
def wbI (h : Fin 512) : EReal := ∑ i : Fin 256, wI len urow i * W1b (ix2 i h)
/-- The hidden layer at column `s`. -/
def hidI (s : Fin 2048) (h : Fin 512) : EReal :=
  max ((∑ i : Fin 256, umI len urow i s * W1a (ix2 i h)) + wbI W1b len urow h + b1 (ix1 h)) 0
/-- The code at column `s`. -/
def zI (s : Fin 2048) (z : Fin 64) : EReal :=
  max ((∑ h : Fin 512, hidI W1a W1b b1 len urow s h * W2 (ix2 h z)) + b2 (ix1 z)) 0
/-- The sample's encoding: the masked sum of the codes over the columns. -/
def rowI (z : Fin 64) : EReal := ∑ s : Fin 2048, ind len s * zI W1a W1b W2 b1 b2 len urow s z

end Row

section Array

variable (u : (⟨3, ![64, 256, 2048]⟩ : Shape).Idx → EReal) (lens : (⟨1, ![64]⟩ : Shape).Idx → BitVec 32)
  (W1 : (⟨2, ![512, 512]⟩ : Shape).Idx → EReal) (b1 : (⟨1, ![512]⟩ : Shape).Idx → EReal)
  (W2 : (⟨2, ![512, 64]⟩ : Shape).Idx → EReal) (b2 : (⟨1, ![64]⟩ : Shape).Idx → EReal)

/-- The upper half of the first layer's weights (rows 0 to 255). -/
def upper : (⟨2, ![256, 512]⟩ : Shape).Idx → EReal := fun k => W1 (ix2 ⟨(k 0).val, by have := idx2_lt0 k; omega⟩ (k 1))
/-- The lower half (rows 256 to 511). -/
def lower : (⟨2, ![256, 512]⟩ : Shape).Idx → EReal := fun k => W1 (ix2 ⟨256 + (k 0).val, by have := idx2_lt0 k; omega⟩ (k 1))
/-- Sample `b`'s table. -/
def sample (b : Fin 64) : (⟨3, ![1, 256, 2048]⟩ : Shape).Idx → EReal := fun k => u (ix3 b (k 1) (k 2))

/-- The encoder's result: entry `(b, z)` is sample `b`'s encoding at `z`. -/
def encZ : (⟨2, ![64, 64]⟩ : Shape).Idx → EReal := fun j =>
  rowI (upper W1) (lower W1) W2 b1 b2 (lens (ix1 (j 0))) (sample u (j 0)) (j 1)

end Array

end Cert.Enc

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.LibMatProdT.lean ====
/-
  A transposed-left matrix product on the extended reals as a sum over the shared axis.

  For the dimension numbers of a `K × A` by `K × B` product that contracts axis 0 of BOTH operands
  (`tdims K A B`: the left operand's axis 0 with the right operand's axis 0, no batch axes; the result's rows are the
  left operand's columns, its columns the right operand's), a kernel's `tpu.matmul` into a zero accumulator and a host
  `dot_general` are, at entry `(a, b)`, the sum over `k : Fin K` of `lhs (k, a) * rhs (k, b)`: the product of the
  transposed left operand with the right one. A printed record with these six lists is `tdims` by `rfl`.
-/
import Idealize.ShloMosaic.PureOps.Ideal.Laws
import Idealize.ShloMosaic.Lib.ValueIdx

noncomputable section

namespace Cert.LibMatProdT

open Idealize.ShloMosaic Idealize.ShloMosaic.ValueIdx

/-- `K×A` by `K×B`, both operands contracted on their first axis: contracting axes `[0]` and `[0]`, non-contracting axes
    `[1]` and `[1]`, no batch axes; the result is `A×B`. -/
def tdims (K A B : ℕ) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

variable (K A B : ℕ)

/-- The left operand's index at result index `i` and contraction index `q`: row `q`'s one coordinate … -/
theorem lhs_axis0 (i : (⟨2, ![A, B]⟩ : Shape).Idx) (q : (tdims K A B).contr.Idx) :
    ((tdims K A B).lhsIdx i q 0).val = (q ⟨0, Nat.one_pos⟩).val :=
  (tdims K A B).lhsIdx_val_of_single rfl i q
/-- … column `i 0`. -/
theorem lhs_axis1 (i : (⟨2, ![A, B]⟩ : Shape).Idx) (q : (tdims K A B).contr.Idx) :
    ((tdims K A B).lhsIdx i q 1).val = (i 0).val := by
  unfold DotDims.lhsIdx
  rw [dif_neg (show ¬(1 : Fin (⟨2, ![K, A]⟩ : Shape).rank) ∈ (tdims K A B).lhsBatch from List.not_mem_nil),
    dif_pos (show (1 : Fin (⟨2, ![K, A]⟩ : Shape).rank) ∈ (tdims K A B).lhsNonContracting from List.mem_singleton.2 rfl)]
  rfl
/-- The right operand's index: row `q`'s one coordinate … -/
theorem rhs_axis0 (i : (⟨2, ![A, B]⟩ : Shape).Idx) (q : (tdims K A B).contr.Idx) :
    ((tdims K A B).rhsIdx i q 0).val = (q ⟨0, Nat.one_pos⟩).val :=
  (tdims K A B).rhsIdx_val_of_single rfl i q
/-- … column `i 1`. -/
theorem rhs_axis1 (i : (⟨2, ![A, B]⟩ : Shape).Idx) (q : (tdims K A B).contr.Idx) :
    ((tdims K A B).rhsIdx i q 1).val = (i 1).val := by
  unfold DotDims.rhsIdx
  rw [dif_neg (show ¬(1 : Fin (⟨2, ![K, B]⟩ : Shape).rank) ∈ (tdims K A B).rhsBatch from List.not_mem_nil),
    dif_pos (show (1 : Fin (⟨2, ![K, B]⟩ : Shape).rank) ∈ (tdims K A B).rhsNonContracting from List.mem_singleton.2 rfl)]
  rfl

/-- The sum over the contraction index of a transposed-left product is the sum over `k : Fin K`. -/
theorem tdims_sum (l : (⟨2, ![K, A]⟩ : Shape).Idx → EReal) (r : (⟨2, ![K, B]⟩ : Shape).Idx → EReal) (a : Fin A) (b : Fin B) :
    (∑ q : (tdims K A B).contr.Idx,
        l ((tdims K A B).lhsIdx (ix2 a b) q) * r ((tdims K A B).rhsIdx (ix2 a b) q))
      = ∑ k : Fin K, l (ix2 k a) * r (ix2 k b) := by
  rw [← Equiv.sum_comp (contrEquiv1 (tdims K A B) K rfl rfl).symm]
  refine Finset.sum_congr rfl fun k _ => ?_
  have hk := contrEquiv1_symm_val (tdims K A B) K rfl rfl k
  have el : (tdims K A B).lhsIdx (ix2 a b) ((contrEquiv1 (tdims K A B) K rfl rfl).symm k) = ix2 k a :=
    funext fun ax => Fin.ext (by
      match ax with
      | ⟨0, _⟩ => exact (lhs_axis0 K A B _ _).trans hk
      | ⟨1, _⟩ => exact lhs_axis1 K A B _ _)
  have er : (tdims K A B).rhsIdx (ix2 a b) ((contrEquiv1 (tdims K A B) K rfl rfl).symm k) = ix2 k b :=
    funext fun ax => Fin.ext (by
      match ax with
      | ⟨0, _⟩ => exact (rhs_axis0 K A B _ _).trans hk
      | ⟨1, _⟩ => exact rhs_axis1 K A B _ _)
  rw [el, er]

variable {K A B}

/-- A kernel's transposed-left matrix product into a zero accumulator, at entry `(a, b)`. -/
theorem matmul_zero_apply {φ₁ φ₂ : FTy} (d : DotDims ⟨2, ![K, A]⟩ ⟨2, ![K, B]⟩ ⟨2, ![A, B]⟩) (hd : d = tdims K A B)
    (prec : Option ContractPrecision) (lhs : FVec Ideal ⟨2, ![K, A]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 k a) * rhs (ix2 k b) := by
  subst hd
  exact (Ideal.matmul_constant_zero_apply _ prec lhs rhs (ix2 a b)).trans (tdims_sum K A B lhs rhs a b)

/-- A host `dot_general` with these dimension numbers, at entry `(a, b)`. -/
theorem dotGeneral_apply {φ₁ φ₂ : FTy} (d : DotDims ⟨2, ![K, A]⟩ ⟨2, ![K, B]⟩ ⟨2, ![A, B]⟩) (hd : d = tdims K A B)
    (prec : Option ContractPrecision) (lhs : FVec Ideal ⟨2, ![K, A]⟩ φ₁) (rhs : FVec Ideal ⟨2, ![K, B]⟩ φ₂) (a : Fin A) (b : Fin B) :
    Host.dotGeneral d prec lhs rhs (ix2 a b) = ∑ k : Fin K, lhs (ix2 k a) * rhs (ix2 k b) := by
  subst hd
  exact (Ideal.dotGeneral_apply _ prec .single lhs rhs (ix2 a b)).trans (tdims_sum K A B lhs rhs a b)

end Cert.LibMatProdT

end
-- ==== Proof.KRow.lean ====
/-
  One sample's code as the kernel computes it, read at an entry on the extended reals: the eight chunks' masked sums
  accumulated from zero are the masked sum over all 2048 columns of the codes (`Cert.Enc.rowI`).
-/
import proofs.«431164_j65386582114982_1_alg».proof.Proof.KSpec
import proofs.«431164_j65386582114982_1_alg».proof.Proof.Spec
import proofs.«431164_j65386582114982_1_alg».proof.Proof.LibMatProd
import proofs.«431164_j65386582114982_1_alg».proof.Proof.LibMatProdT
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.KernelIdeal.Enc

open Idealize.ShloMosaic Idealize.ShloMosaic.ValueIdx Cert.KernelIdeal

/-- The mask at column `s` is the column's validity. -/
theorem maskRow_apply (len : BitVec 32) (s : Fin 2048) :
    maskRow (F := Ideal) len (ix2 0 s) = Cert.Enc.ind len s := by
  unfold maskRow Cert.Enc.ind
  show ((((IntOp.cmpi .slt (iota .tc S1x2048 32 [1] Facts₀.iota_S1x2048_d1_w32 (ix2 0 s)) len).setWidth 32).toInt : ℝ) : EReal) = _
  rw [iota_single_apply, toInt_setWidth_bit]
  norm_cast

/-- The masked table at row `i`, column `s`. -/
theorem umRow_apply (len : BitVec 32) (urow : FVec Ideal S1x256x2048 .f32) (i : Fin 256) (s : Fin 2048) :
    umRow (F := Ideal) len urow (ix2 i s) = Cert.Enc.umI len urow i s := by
  unfold umRow Cert.Enc.umI
  rw [mulf_apply, shapeCast_1ab_ab_apply, broadcastTo_1b_ab_apply, maskRow_apply]

/-- The row sums of any table through the lower half of the first layer, at entry `h`. -/
theorem wbRow_apply_gen (W1b : FVec Ideal S256x512 .f32) (um : FVec Ideal S256x2048 .f32) (h : Fin 512) :
    wbRow (F := Ideal) W1b um (ix2 0 h) = ∑ i : Fin 256, (∑ s : Fin 2048, um (ix2 i s)) * W1b (ix2 i h) := by
  unfold wbRow
  refine (Cert.LibMatProd.matmul_zero_apply _ rfl none _ _ 0 h).trans ?_
  refine Finset.sum_congr rfl fun i _ => ?_
  refine congrArg (· * W1b (ix2 i h)) ?_
  refine (shapeCast_a_1a_apply _ _ 0 i).trans ?_
  refine (truncf_apply (ψ := .bf16) _ Facts₀.bitsLt_bf16_f32 (ix1 i)).trans ?_
  refine (Ideal.multiReduction_add_single um _ Facts₀.reduces_S256x2048_S256 _ _ (ix1 i)).trans ?_
  refine Finset.sum_congr rfl fun s _ => ?_
  exact congrArg um (funext fun a => Fin.ext (match a with | ⟨0, _⟩ => rfl | ⟨1, _⟩ => rfl))

/-- The masked table's row sums through the lower half of the first layer, at entry `h`. -/
theorem wbRow_apply (W1b : FVec Ideal S256x512 .f32) (len : BitVec 32) (urow : FVec Ideal S1x256x2048 .f32) (h : Fin 512) :
    wbRow (F := Ideal) W1b (umRow len urow) (ix2 0 h) = Cert.Enc.wbI W1b len urow h := by
  rw [wbRow_apply_gen]
  unfold Cert.Enc.wbI Cert.Enc.wI
  refine Finset.sum_congr rfl fun i _ => ?_
  refine congrArg (· * W1b (ix2 i h)) ?_
  exact Finset.sum_congr rfl fun s _ => umRow_apply len urow i s

/-- A bias vector laid along every row reads, at `(p, c)`, the vector at `c`. -/
theorem biasRow_apply {a b : ℕ} (v : FVec Ideal ⟨1, ![b]⟩ .f32) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

/-- The zero splat reads `0` at every index. -/
theorem zeroSplat_apply (S : Shape) (j : S.Idx) :
    broadcast S (Scalar.ofBits (F := Ideal) .f32 0x00000000#32) j = (0 : EReal) :=
  Ideal.ofBits_zero_f32

/-- The hidden layer of the 256 columns from `off 1`. -/
def hidChunk (off : Fin 2 → ℕ) (hsu : S256x2048.Slices off S256x256) (W1a : FVec Ideal S256x512 .f32) (b1 : FVec Ideal S512 .f32)
    (um : FVec Ideal S256x2048 .f32) (wb : FVec Ideal S1x512 .f32) : FVec Ideal S256x512 .f32 :=
  maximumf (addf (addf (matmul dot_S256x256_S256x512_S256x512_0_0_1_1_n_n none
        (truncf .bf16 (extractStridedSlice S256x256 off um hsu) Facts₀.bitsLt_bf16_f32) (truncf .bf16 W1a Facts₀.bitsLt_bf16_f32) (constant S256x512 .f32 0x00000000#32))
      (broadcastTo S256x512 wb Facts₀.broadcasts_S1x512_S256x512))
    (broadcastTo S256x512 (shapeCast S1x512 b1 Facts₀.shapeCasts_S512_S1x512) Facts₀.broadcasts_S1x512_S256x512))
    (broadcast S256x512 (Scalar.ofBits .f32 0x00000000#32))

/-- The codes of the 256 columns from `off 1`. -/
def codeChunk (off : Fin 2 → ℕ) (hsu : S256x2048.Slices off S256x256) (W1a : FVec Ideal S256x512 .f32) (W2 : FVec Ideal S512x64 .f32)
    (b1 : FVec Ideal S512 .f32) (b2 : FVec Ideal S64 .f32) (um : FVec Ideal S256x2048 .f32) (wb : FVec Ideal S1x512 .f32) :
    FVec Ideal S256x64 .f32 :=
  maximumf (addf (matmul dot_S256x512_S512x64_S256x64_1_0_0_1_n_n none
        (truncf .bf16 (hidChunk off hsu W1a b1 um wb) Facts₀.bitsLt_bf16_f32)
        (truncf .bf16 W2 Facts₀.bitsLt_bf16_f32) (constant S256x64 .f32 0x00000000#32))
      (broadcastTo S256x64 (shapeCast S1x64 b2 Facts₀.shapeCasts_S64_S1x64) Facts₀.broadcasts_S1x64_S256x64))
    (broadcast S256x64 (Scalar.ofBits .f32 0x00000000#32))

/-- A chunk is its mask row times its codes. -/
theorem chunkZ_eq (off : Fin 2 → ℕ) (hsu : S256x2048.Slices off S256x256) (hsm : S1x2048.Slices off S1x256)
    (W1a : FVec Ideal S256x512 .f32) (W2 : FVec Ideal S512x64 .f32) (b1 : FVec Ideal S512 .f32) (b2 : FVec Ideal S64 .f32)
    (mask : FVec Ideal S1x2048 .f32) (um : FVec Ideal S256x2048 .f32) (wb : FVec Ideal S1x512 .f32) :
    chunkZ (F := Ideal) off hsu hsm W1a W2 b1 b2 mask um wb
      = matmul dot_S1x256_S256x64_S1x64_1_0_0_1_n_n none
          (truncf .bf16 (extractStridedSlice S1x256 off mask hsm) Facts₀.bitsLt_bf16_f32)
          (truncf .bf16 (codeChunk off hsu W1a W2 b1 b2 um wb) Facts₀.bitsLt_bf16_f32) (constant S1x64 .f32 0x00000000#32) := rfl

/-- The hidden layer of a chunk at its column `s'` and unit `h`. -/
theorem hidChunk_apply (o : ℕ) (ho : o + 256 ≤ 2048) (hsu : S256x2048.Slices ![0, o] S256x256)
    (W1a : FVec Ideal S256x512 .f32) (b1 : FVec Ideal S512 .f32) (um : FVec Ideal S256x2048 .f32) (wb : FVec Ideal S1x512 .f32)
    (s' : Fin 256) (h : Fin 512) :
    hidChunk ![0, o] hsu W1a b1 um wb (ix2 s' h)
      = max ((∑ i : Fin 256, um (ix2 i ⟨o + s', by omega⟩) * W1a (ix2 i h)) + wb (ix2 0 h) + b1 (ix1 h)) 0 := by
  unfold hidChunk
  rw [maximumf_apply, addf_apply, addf_apply, zeroSplat_apply, biasRow_apply, broadcastTo_1b_ab_apply]
  refine congrArg (fun x => max (x + wb (ix2 0 h) + b1 (ix1 h)) 0) ?_
  refine (Cert.LibMatProdT.matmul_zero_apply _ rfl none _ _ s' h).trans ?_
  refine Finset.sum_congr rfl fun i _ => ?_
  refine congrArg (· * W1a (ix2 i h)) ?_
  exact slice2_axis1_apply o um hsu i s' ⟨o + s', by omega⟩ rfl

/-- The code of a chunk at its column `s'` and entry `z`. -/
theorem codeChunk_apply (o : ℕ) (ho : o + 256 ≤ 2048) (hsu : S256x2048.Slices ![0, o] S256x256)
    (W1a : FVec Ideal S256x512 .f32) (W2 : FVec Ideal S512x64 .f32) (b1 : FVec Ideal S512 .f32) (b2 : FVec Ideal S64 .f32)
    (um : FVec Ideal S256x2048 .f32) (wb : FVec Ideal S1x512 .f32) (s' : Fin 256) (z : Fin 64) :
    codeChunk ![0, o] hsu W1a W2 b1 b2 um wb (ix2 s' z)
      = max ((∑ h : Fin 512, max ((∑ i : Fin 256, um (ix2 i ⟨o + s', by omega⟩) * W1a (ix2 i h)) + wb (ix2 0 h) + b1 (ix1 h)) 0
              * W2 (ix2 h z)) + b2 (ix1 z)) 0 := by
  unfold codeChunk
  rw [maximumf_apply, addf_apply, zeroSplat_apply, biasRow_apply]
  refine congrArg (fun x => max (x + b2 (ix1 z)) 0) ?_
  refine (Cert.LibMatProd.matmul_zero_apply _ rfl none _ _ s' z).trans ?_
  refine Finset.sum_congr rfl fun h _ => ?_
  refine congrArg (· * W2 (ix2 h z)) ?_
  exact hidChunk_apply o ho hsu W1a b1 um wb s' h

/-- A chunk at entry `z`: the masked sum over its 256 columns of the codes. -/
theorem chunkZ_apply (o : ℕ) (ho : o + 256 ≤ 2048) (hsu : S256x2048.Slices ![0, o] S256x256) (hsm : S1x2048.Slices ![0, o] S1x256)
    (W1a : FVec Ideal S256x512 .f32) (W2 : FVec Ideal S512x64 .f32) (b1 : FVec Ideal S512 .f32) (b2 : FVec Ideal S64 .f32)
    (mask : FVec Ideal S1x2048 .f32) (um : FVec Ideal S256x2048 .f32) (wb : FVec Ideal S1x512 .f32) (z : Fin 64) :
    chunkZ (F := Ideal) ![0, o] hsu hsm W1a W2 b1 b2 mask um wb (ix2 0 z)
      = ∑ s' : Fin 256, mask (ix2 0 ⟨o + s', by omega⟩)
          * max ((∑ h : Fin 512, max ((∑ i : Fin 256, um (ix2 i ⟨o + s', by omega⟩) * W1a (ix2 i h)) + wb (ix2 0 h) + b1 (ix1 h)) 0
              * W2 (ix2 h z)) + b2 (ix1 z)) 0 := by
  rw [chunkZ_eq]
  refine (Cert.LibMatProd.matmul_zero_apply _ rfl none _ _ 0 z).trans ?_
  refine Finset.sum_congr rfl fun s' _ => ?_
  refine congr (congrArg HMul.hMul ?_) ?_
  · exact slice2_axis1_apply o mask hsm 0 s' ⟨o + s', by omega⟩ rfl
  · exact codeChunk_apply o ho hsu W1a W2 b1 b2 um wb s' z

/-- The first `o + 256` columns are the first `o` and the 256 from `o`. -/
theorem sum_peel (f : Fin 2048 → EReal) (o N : ℕ) (hN : N = o + 256) (h : N ≤ 2048) :
    ∑ s : Fin N, f ⟨s, lt_of_lt_of_le s.isLt h⟩
      = (∑ s : Fin o, f ⟨s, by have := s.isLt; omega⟩) + ∑ s' : Fin 256, f ⟨o + s', by have := s'.isLt; omega⟩ := by
  subst hN
  exact Fin.sum_univ_add (fun s : Fin (o + 256) => f ⟨s, lt_of_lt_of_le s.isLt h⟩)

/-- The sum over the 2048 columns, chunk by chunk from zero. -/
theorem sum_chunks (f : Fin 2048 → EReal) :
    ∑ s : Fin 2048, f s
      = 0 + (∑ s' : Fin 256, f ⟨0 + s', by have := s'.isLt; omega⟩) + (∑ s' : Fin 256, f ⟨256 + s', by have := s'.isLt; omega⟩)
          + (∑ s' : Fin 256, f ⟨512 + s', by have := s'.isLt; omega⟩) + (∑ s' : Fin 256, f ⟨768 + s', by have := s'.isLt; omega⟩)
          + (∑ s' : Fin 256, f ⟨1024 + s', by have := s'.isLt; omega⟩) + (∑ s' : Fin 256, f ⟨1280 + s', by have := s'.isLt; omega⟩)
          + (∑ s' : Fin 256, f ⟨1536 + s', by have := s'.isLt; omega⟩) + (∑ s' : Fin 256, f ⟨1792 + s', by have := s'.isLt; omega⟩) := by
  have e0 : ∑ s : Fin 2048, f s = ∑ s : Fin 2048, f ⟨s, lt_of_lt_of_le s.isLt (le_refl 2048)⟩ := rfl
  rw [e0, sum_peel f 1792 2048 rfl (le_refl _), sum_peel f 1536 1792 rfl (by norm_num), sum_peel f 1280 1536 rfl (by norm_num),
    sum_peel f 1024 1280 rfl (by norm_num), sum_peel f 768 1024 rfl (by norm_num), sum_peel f 512 768 rfl (by norm_num),
    sum_peel f 256 512 rfl (by norm_num), sum_peel f 0 256 rfl (by norm_num)]
  rfl

/-- A sample's chunk from column `o` at entry `z`: the masked sum over its 256 columns of the spec's codes. -/
theorem chunkZ_row_apply (o : ℕ) (ho : o + 256 ≤ 2048) (hsu : S256x2048.Slices ![0, o] S256x256) (hsm : S1x2048.Slices ![0, o] S1x256)
    (W1a W1b : FVec Ideal S256x512 .f32) (W2 : FVec Ideal S512x64 .f32) (b1 : FVec Ideal S512 .f32) (b2 : FVec Ideal S64 .f32)
    (len : BitVec 32) (urow : FVec Ideal S1x256x2048 .f32) (z : Fin 64) :
    chunkZ (F := Ideal) ![0, o] hsu hsm W1a W2 b1 b2 (maskRow len) (umRow len urow) (wbRow W1b (umRow len urow)) (ix2 0 z)
      = ∑ s' : Fin 256, Cert.Enc.ind len ⟨o + s', by have := s'.isLt; omega⟩
          * Cert.Enc.zI W1a W1b W2 b1 b2 len urow ⟨o + s', by have := s'.isLt; omega⟩ z := by
  rw [chunkZ_apply o ho]
  refine Finset.sum_congr rfl fun s' _ => ?_
  rw [maskRow_apply]
  unfold Cert.Enc.zI Cert.Enc.hidI
  refine congrArg (fun x => Cert.Enc.ind len ⟨o + s', by have := s'.isLt; omega⟩ * max (x + b2 (ix1 z)) 0) ?_
  refine Finset.sum_congr rfl fun h _ => ?_
  rw [wbRow_apply]
  refine congrArg (fun x => max (x + Cert.Enc.wbI W1b len urow h + b1 (ix1 h)) 0 * W2 (ix2 h z)) ?_
  exact Finset.sum_congr rfl fun i _ => congrArg (· * W1a (ix2 i h)) (umRow_apply len urow i _)

/-- A sample's code at entry `z` is the masked sum over the columns of the code at each column. -/
theorem rowEnc_apply (W1a W1b : FVec Ideal S256x512 .f32) (W2 : FVec Ideal S512x64 .f32) (b1 : FVec Ideal S512 .f32)
    (b2 : FVec Ideal S64 .f32) (len : BitVec 32) (urow : FVec Ideal S1x256x2048 .f32) (z : Fin 64) :
    rowEnc (F := Ideal) W1a W1b W2 b1 b2 len urow (ix2 0 z) = Cert.Enc.rowI W1a W1b W2 b1 b2 len urow z := by
  unfold rowEnc rowAcc Cert.Enc.rowI
  rw [sum_chunks]
  simp only [addf_apply]
  rw [zeroSplat_apply, chunkZ_row_apply 0 (by norm_num), chunkZ_row_apply 256 (by norm_num), chunkZ_row_apply 512 (by norm_num),
    chunkZ_row_apply 768 (by norm_num), chunkZ_row_apply 1024 (by norm_num), chunkZ_row_apply 1280 (by norm_num),
    chunkZ_row_apply 1536 (by norm_num), chunkZ_row_apply 1792 (by norm_num)]

end Cert.KernelIdeal.Enc

end
-- ==== Proof.KValue.lean ====
import proofs.«431164_j65386582114982_1_alg».proof.Proof.Gen.KernelIdeal.Frame
import proofs.«431164_j65386582114982_1_alg».proof.Proof.KPiece
import proofs.«431164_j65386582114982_1_alg».proof.Proof.KBlock
import proofs.«431164_j65386582114982_1_alg».proof.Proof.KRow
import proofs.«431164_j65386582114982_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-! ## The encoder's result, and the block reads -/

/-- The encoder's result of the argument arrays as the region finds them. -/
def Zarr (c : Dev nD) : S64x64.Idx → EReal :=
  Cert.Enc.encZ (V m c main_arg0) (V m c main_arg1) (V m c main_arg2) (V m c main_arg3) (V m c main_arg4) (V m c main_arg5)

/-- The printed index maps over the grid: the tables' window and the output's move one block per point along axis 0,
    the weights' and biases' windows stay at block 0; the one grid coordinate is the point's number. -/
theorem idx_facts (a : (pcfg0 (F := Ideal)).Adm) : ∀ t : Fin (cfg0 a).N,
    ((cfg0 a).win 0).index t (0 : Fin 3) = t.val ∧ ((cfg0 a).win 0).index t (1 : Fin 3) = 0 ∧ ((cfg0 a).win 0).index t (2 : Fin 3) = 0
    ∧ ((cfg0 a).win 1).index t (0 : Fin 2) = 0 ∧ ((cfg0 a).win 1).index t (1 : Fin 2) = 0
    ∧ ((cfg0 a).win 2).index t (0 : Fin 1) = 0
    ∧ ((cfg0 a).win 3).index t (0 : Fin 2) = 0 ∧ ((cfg0 a).win 3).index t (1 : Fin 2) = 0
    ∧ ((cfg0 a).win 4).index t (0 : Fin 1) = 0
    ∧ ((cfg0 a).win 5).index t (0 : Fin 2) = t.val ∧ ((cfg0 a).win 5).index t (1 : Fin 2) = 0
    ∧ (grid0.coords t (0 : Fin 1)).val = t.val :=
  (by decide +kernel : ∀ t : Fin grid0.N,
    cc0_transform_0 (grid0.coords t) (0 : Fin 3) = t.val ∧ cc0_transform_0 (grid0.coords t) (1 : Fin 3) = 0 ∧ cc0_transform_0 (grid0.coords t) (2 : Fin 3) = 0
    ∧ cc0_transform_1 (grid0.coords t) (0 : Fin 2) = 0 ∧ cc0_transform_1 (grid0.coords t) (1 : Fin 2) = 0
    ∧ cc0_transform_2 (grid0.coords t) (0 : Fin 1) = 0
    ∧ cc0_transform_3 (grid0.coords t) (0 : Fin 2) = 0 ∧ cc0_transform_3 (grid0.coords t) (1 : Fin 2) = 0
    ∧ cc0_transform_4 (grid0.coords t) (0 : Fin 1) = 0
    ∧ cc0_transform_5 (grid0.coords t) (0 : Fin 2) = t.val ∧ cc0_transform_5 (grid0.coords t) (1 : Fin 2) = 0
    ∧ (grid0.coords t (0 : Fin 1)).val = t.val)

/-- A point's number is below 8. -/
theorem point_lt (hO : Ok m) (t : Fin (cfgM m hO).N) : t.val < 8 := lt_of_lt_of_eq t.isLt N_0

/-- The input blocks at a point, named at their literal types. -/
abbrev ublk (hO : Ok m) (c : Dev nD) (t : Fin (cfgM m hO).N) : Vec Ideal S8x256x2048 .f32 := iblk m hO c 0 t
abbrev w1blk (hO : Ok m) (c : Dev nD) (t : Fin (cfgM m hO).N) : Vec Ideal S512x512 .f32 := iblk m hO c 1 t
abbrev b1blk (hO : Ok m) (c : Dev nD) (t : Fin (cfgM m hO).N) : Vec Ideal S512 .f32 := iblk m hO c 2 t
abbrev w2blk (hO : Ok m) (c : Dev nD) (t : Fin (cfgM m hO).N) : Vec Ideal S512x64 .f32 := iblk m hO c 3 t
abbrev b2blk (hO : Ok m) (c : Dev nD) (t : Fin (cfgM m hO).N) : Vec Ideal S64 .f32 := iblk m hO c 4 t

/-- What the body loads: the two halves of the first layer's weights … -/
abbrev A_ (hO : Ok m) (c : Dev nD) (t : Fin (cfgM m hO).N) : FVec Ideal S256x512 .f32 :=
  View.ld (w1blk m hO c t) (Rect.unit (s := S512x512) ![0, 0] ![256, 512] inb_S512x512_S256x512_0_0)
abbrev B_ (hO : Ok m) (c : Dev nD) (t : Fin (cfgM m hO).N) : FVec Ideal S256x512 .f32 :=
  View.ld (w1blk m hO c t) (Rect.unit (s := S512x512) ![256, 0] ![256, 512] inb_S512x512_S256x512_256_0)

/-- A sample's table fits in the block of eight tables. -/
theorem u_inb (r : Fin 8) : ∀ a, (![r.val, 0, 0] : Fin 3 → ℕ) a + (![1, 256, 2048] : Fin 3 → ℕ) a ≤ S8x256x2048.size a := by
  intro a
  have := r.isLt
  match a with
  | ⟨0, _⟩ => show r.val + 1 ≤ 8; omega
  | ⟨1, _⟩ => show 0 + 256 ≤ 256; omega
  | ⟨2, _⟩ => show 0 + 2048 ≤ 2048; omega

/-- … sample `r`'s length word, from the table of lengths … -/
abbrev len_ (hO : Ok m) (t : Fin (cfgM m hO).N) (r : Fin 8) : BitVec 32 :=
  View.ld (View.read (Elt Ideal) (View.whole main_arg1) (tbl m 0))
    (Rect.unit (s := S64) (k0_off1 (grid0.coords t) (BitVec.ofNat 32 r.val)) ![1] (k0_off1_inb (grid0.coords t) r))
    (Shape.Idx.first (numel1_S1.symm ▸ Nat.one_pos))
/-- … and sample `r`'s table, from the block of tables. -/
abbrev u_ (hO : Ok m) (c : Dev nD) (t : Fin (cfgM m hO).N) (r : Fin 8) : FVec Ideal S1x256x2048 .f32 :=
  View.ld (ublk m hO c t) (Rect.unit (s := S8x256x2048) ![r.val, 0, 0] ![1, 256, 2048] (u_inb r))

/-- The output block after the body at point `t`: the eight samples' codes of what the body loads there. -/
theorem outs_eq (hO : Ok m) (c : Dev nD) (t : Fin (cfgM m hO).N) :
    outsAt0 m hO c t = Enc.encBlock (A_ m hO c t) (B_ m hO c t) (w2blk m hO c t) (b1blk m hO c t) (b2blk m hO c t)
      (len_ m hO t 0) (len_ m hO t 1) (len_ m hO t 2) (len_ m hO t 3) (len_ m hO t 4) (len_ m hO t 5) (len_ m hO t 6) (len_ m hO t 7)
      (u_ m hO c t 0) (u_ m hO c t 1) (u_ m hO c t 2) (u_ m hO c t 3) (u_ m hO c t 4) (u_ m hO c t 5) (u_ m hO c t 6) (u_ m hO c t 7) := by
  unfold outsAt0
  exact out0_A_5_eq (F := Ideal) c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t)
    (iblk m hO c 0 t) (iblk m hO c 1 t) (iblk m hO c 2 t) (iblk m hO c 3 t) (iblk m hO c 4 t) (tbl m 0)

/-- The upper half of the first layer's weights, as the body loads it from the weights' block. -/
theorem A_eq' (hO : Ok m) (c : Dev nD) (t : Fin (cfgM m hO).N) : A_ m hO c t = Cert.Enc.upper (V m c main_arg2) := by
  obtain ⟨-, -, -, e0, e1, -⟩ := idx_facts (adm m hO) t
  refine funext fun (k : S256x512.Idx) => ?_
  show V m c main_arg2 ((((cfgM m hO).win 1).blk t).view.emb ((Rect.unit (s := S512x512) ![0, 0] ![256, 512] inb_S512x512_S256x512_0_0).emb k)) = V m c main_arg2 (ix2 ⟨(k 0).val, _⟩ (k 1))
  refine congrArg _ (funext fun a => Fin.ext ?_)
  match a with
  | ⟨0, _⟩ => show ((cfg0 (adm m hO)).win 1).index t (0 : Fin 2) * 512 + 1 * (0 + 1 * (k 0).val) = (k 0).val; omega
  | ⟨1, _⟩ => show ((cfg0 (adm m hO)).win 1).index t (1 : Fin 2) * 512 + 1 * (0 + 1 * (k 1).val) = (k 1).val; omega

/-- The lower half. -/
theorem B_eq' (hO : Ok m) (c : Dev nD) (t : Fin (cfgM m hO).N) : B_ m hO c t = Cert.Enc.lower (V m c main_arg2) := by
  obtain ⟨-, -, -, e0, e1, -⟩ := idx_facts (adm m hO) t
  refine funext fun (k : S256x512.Idx) => ?_
  show V m c main_arg2 ((((cfgM m hO).win 1).blk t).view.emb ((Rect.unit (s := S512x512) ![256, 0] ![256, 512] inb_S512x512_S256x512_256_0).emb k)) = V m c main_arg2 (ix2 ⟨256 + (k 0).val, _⟩ (k 1))
  refine congrArg _ (funext fun a => Fin.ext ?_)
  match a with
  | ⟨0, _⟩ => show ((cfg0 (adm m hO)).win 1).index t (0 : Fin 2) * 512 + 1 * (256 + 1 * (k 0).val) = 256 + (k 0).val; omega
  | ⟨1, _⟩ => show ((cfg0 (adm m hO)).win 1).index t (1 : Fin 2) * 512 + 1 * (0 + 1 * (k 1).val) = (k 1).val; omega

/-- The second layer's weights' block is the whole array. -/
theorem w2blk_eq (hO : Ok m) (c : Dev nD) (t : Fin (cfgM m hO).N) : w2blk m hO c t = V m c main_arg4 := by
  obtain ⟨-, -, -, -, -, -, e0, e1, -⟩ := idx_facts (adm m hO) t
  refine funext fun (k : S512x64.Idx) => ?_
  show V m c main_arg4 ((((cfgM m hO).win 3).blk t).view.emb k) = V m c main_arg4 k
  refine congrArg _ (funext fun a => Fin.ext ?_)
  match a with
  | ⟨0, _⟩ => show ((cfg0 (adm m hO)).win 3).index t (0 : Fin 2) * 512 + 1 * (k 0).val = (k 0).val; omega
  | ⟨1, _⟩ => show ((cfg0 (adm m hO)).win 3).index t (1 : Fin 2) * 64 + 1 * (k 1).val = (k 1).val; omega

/-- The first bias' block is the whole array. -/
theorem b1blk_eq (hO : Ok m) (c : Dev nD) (t : Fin (cfgM m hO).N) : b1blk m hO c t = V m c main_arg3 := by
  obtain ⟨-, -, -, -, -, e0, -⟩ := idx_facts (adm m hO) t
  refine funext fun (k : S512.Idx) => ?_
  show V m c main_arg3 ((((cfgM m hO).win 2).blk t).view.emb k) = V m c main_arg3 k
  refine congrArg _ (funext fun a => Fin.ext ?_)
  match a with
  | ⟨0, _⟩ => show ((cfg0 (adm m hO)).win 2).index t (0 : Fin 1) * 512 + 1 * (k 0).val = (k 0).val; omega

/-- The second bias' block is the whole array. -/
theorem b2blk_eq (hO : Ok m) (c : Dev nD) (t : Fin (cfgM m hO).N) : b2blk m hO c t = V m c main_arg5 := by
  obtain ⟨-, -, -, -, -, -, -, -, e0, -⟩ := idx_facts (adm m hO) t
  refine funext fun (k : S64.Idx) => ?_
  show V m c main_arg5 ((((cfgM m hO).win 4).blk t).view.emb k) = V m c main_arg5 k
  refine congrArg _ (funext fun a => Fin.ext ?_)
  match a with
  | ⟨0, _⟩ => show ((cfg0 (adm m hO)).win 4).index t (0 : Fin 1) * 64 + 1 * (k 0).val = (k 0).val; omega

/-- Sample `r` of the block at point `t` is sample `8 t + r` of the array. -/
theorem u_eq (hO : Ok m) (c : Dev nD) (t : Fin (cfgM m hO).N) (r : Fin 8) :
    u_ m hO c t r = Cert.Enc.sample (V m c main_arg0) ⟨8 * t.val + r.val, by have := point_lt m hO t; have := r.isLt; omega⟩ := by
  obtain ⟨e0, e1, e2, -⟩ := idx_facts (adm m hO) t
  refine funext fun (k : S1x256x2048.Idx) => ?_
  show V m c main_arg0 ((((cfgM m hO).win 0).blk t).view.emb ((Rect.unit (s := S8x256x2048) ![r.val, 0, 0] ![1, 256, 2048] (u_inb r)).emb k))
    = V m c main_arg0 (ix3 ⟨8 * t.val + r.val, _⟩ (k 1) (k 2))
  refine congrArg _ (funext fun a => Fin.ext ?_)
  have hk0 : (k 0).val < 1 := (k 0).isLt
  match a with
  | ⟨0, _⟩ => show ((cfg0 (adm m hO)).win 0).index t (0 : Fin 3) * 8 + 1 * (r.val + 1 * (k 0).val) = 8 * t.val + r.val; omega
  | ⟨1, _⟩ => show ((cfg0 (adm m hO)).win 0).index t (1 : Fin 3) * 256 + 1 * (0 + 1 * (k 1).val) = (k 1).val; omega
  | ⟨2, _⟩ => show ((cfg0 (adm m hO)).win 0).index t (2 : Fin 3) * 2048 + 1 * (0 + 1 * (k 2).val) = (k 2).val; omega

/-- Sample `r`'s length word at point `t` is entry `8 t + r` of the lengths. -/
theorem len_eq (hO : Ok m) (c : Dev nD) (t : Fin (cfgM m hO).N) (r : Fin 8) :
    len_ m hO t r = V m c main_arg1 (ix1 ⟨8 * t.val + r.val, by have := point_lt m hO t; have := r.isLt; omega⟩) := by
  obtain ⟨-, -, -, -, -, -, -, -, -, -, -, eg⟩ := idx_facts (adm m hO) t
  obtain rfl : c = 0 := Subsingleton.elim _ _
  show V m 0 main_arg1 ((Rect.unit (s := S64) (k0_off1 (grid0.coords t) (BitVec.ofNat 32 r.val)) ![1] (k0_off1_inb (grid0.coords t) r)).emb (Shape.Idx.first (numel1_S1.symm ▸ Nat.one_pos)))
    = V m 0 main_arg1 (ix1 ⟨8 * t.val + r.val, _⟩)
  refine congrArg _ (funext fun a => Fin.ext ?_)
  match a with
  | ⟨0, _⟩ =>
    show k0_off1 (grid0.coords t) (BitVec.ofNat 32 r.val) (0 : Fin 1) + 1 * 0 = 8 * t.val + r.val
    rw [k0_off1_eq (grid0.coords t) r]
    show 8 * (grid0.coords t (0 : Fin 1)).val + r.val + 1 * 0 = 8 * t.val + r.val
    omega

/-- Entry `(r, z)` of the output block at point `t` is entry `(8 t + r, z)` of the array. -/
theorem emb5 (hO : Ok m) (t : Fin (cfgM m hO).N) (r : Fin 8) (z : Fin 64) :
    (((cfgM m hO).win 5).blk t).view.emb (ix2 r z) = (ix2 (⟨8 * t.val + r.val, by have := point_lt m hO t; have := r.isLt; omega⟩ : Fin 64) z : S64x64.Idx) := by
  obtain ⟨-, -, -, -, -, -, -, -, -, e0, e1, -⟩ := idx_facts (adm m hO) t
  refine funext fun a => Fin.ext ?_
  match a with
  | ⟨0, _⟩ => show ((cfg0 (adm m hO)).win 5).index t (0 : Fin 2) * 8 + 1 * r.val = 8 * t.val + r.val; omega
  | ⟨1, _⟩ => show ((cfg0 (adm m hO)).win 5).index t (1 : Fin 2) * 64 + 1 * z.val = z.val; omega

/-! ## What a point writes back, the cover, the final array -/

/-- Entry by entry, the output block after the body at point `t` is the encoder's result under the block. -/
theorem outs_at (hO : Ok m) (c : Dev nD) (t : Fin (cfgM m hO).N) (y : S8x64.Idx) :
    outsAt0 m hO c t y = Zarr m c ((((cfgM m hO).win 5).blk t).view.emb y) := by
  obtain ⟨r, z, rfl⟩ : ∃ (r : Fin 8) (z : Fin 64), y = ix2 r z := ⟨y 0, y 1, eq_ix2 y⟩
  rw [outs_eq m hO c t, emb5 m hO t r z]
  have key : ∀ r' : Fin 8, Enc.rowEnc (F := Ideal) (A_ m hO c t) (B_ m hO c t) (w2blk m hO c t) (b1blk m hO c t) (b2blk m hO c t) (len_ m hO t r') (u_ m hO c t r') (ix2 0 z)
      = Zarr m c (ix2 (⟨8 * t.val + r'.val, by have := point_lt m hO t; have := r'.isLt; omega⟩ : Fin 64) z) := by
    intro r'
    refine (Enc.rowEnc_apply (A_ m hO c t) (B_ m hO c t) (w2blk m hO c t) (b1blk m hO c t) (b2blk m hO c t) (len_ m hO t r') (u_ m hO c t r') z).trans ?_
    rw [A_eq' m hO c t, B_eq' m hO c t, w2blk_eq m hO c t, b1blk_eq m hO c t, b2blk_eq m hO c t, len_eq m hO c t r', u_eq m hO c t r']
    rfl
  fin_cases r
  · exact (Enc.encBlock_row0 _ _ _ _ _ _ _ _ _ _ _ _ _ _ _ _ _ _ _ _ _ z).trans (key 0)
  · exact (Enc.encBlock_row1 _ _ _ _ _ _ _ _ _ _ _ _ _ _ _ _ _ _ _ _ _ z).trans (key 1)
  · exact (Enc.encBlock_row2 _ _ _ _ _ _ _ _ _ _ _ _ _ _ _ _ _ _ _ _ _ z).trans (key 2)
  · exact (Enc.encBlock_row3 _ _ _ _ _ _ _ _ _ _ _ _ _ _ _ _ _ _ _ _ _ z).trans (key 3)
  · exact (Enc.encBlock_row4 _ _ _ _ _ _ _ _ _ _ _ _ _ _ _ _ _ _ _ _ _ z).trans (key 4)
  · exact (Enc.encBlock_row5 _ _ _ _ _ _ _ _ _ _ _ _ _ _ _ _ _ _ _ _ _ z).trans (key 5)
  · exact (Enc.encBlock_row6 _ _ _ _ _ _ _ _ _ _ _ _ _ _ _ _ _ _ _ _ _ z).trans (key 6)
  · exact (Enc.encBlock_row7 _ _ _ _ _ _ _ _ _ _ _ _ _ _ _ _ _ _ _ _ _ z).trans (key 7)

/-- WHAT POINT `t` WRITES BACK is block `t` of the encoder's result. -/
theorem flushed5_eq (hO : Ok m) (c : Dev nD) (t : Fin (cfgM m hO).N) :
    (dats m hO 0 c).flushed 5 t = (((cfgM m hO).win 5).blk t).view.read (Elt Ideal) (Zarr m c) := by
  show ((cfgM m hO).win 5).cut (grid0.coords t) ((dats m hO 0 c).after 5 t) = _
  rw [after0_5]
  funext y
  exact outs_at m hO c t y

/-- Every entry of the array is in some point's block: row `b` is row `b % 8` of point `b / 8`'s block. -/
theorem cover5 (hO : Ok m) (i : S64x64.Idx) :
    ∃ t : Fin (cfgM m hO).N, ((cfgM m hO).win 5).flush t = true ∧ i ∈ (((cfgM m hO).win 5).blk t).view.set := by
  have hi0 : (i 0).val < 64 := idx2_lt0 i
  let t : Fin (cfgM m hO).N := ⟨(i 0).val / 8, by rw [show (cfgM m hO).N = 8 from N_0]; omega⟩
  refine ⟨t, flush0_5 (adm m hO) t, ?_⟩
  have e : (((cfgM m hO).win 5).blk t).view.emb (ix2 (⟨(i 0).val % 8, Nat.mod_lt _ (by norm_num)⟩ : Fin 8) (⟨(i 1).val, idx2_lt1 i⟩ : Fin 64)) = i := by
    rw [emb5 m hO t _ _]
    refine funext fun a => Fin.ext ?_
    match a with
    | ⟨0, _⟩ => show 8 * ((i 0).val / 8) + (i 0).val % 8 = (i 0).val; omega
    | ⟨1, _⟩ => rfl
  have hmem := (((cfgM m hO).win 5).blk t).view.emb_mem_set (ix2 (⟨(i 0).val % 8, Nat.mod_lt _ (by norm_num)⟩ : Fin 8) (⟨(i 1).val, idx2_lt1 i⟩ : Fin 64))
  rw [e] at hmem
  exact hmem

/-- THE ARRAY after the run is the encoder's result. -/
theorem final5 (hO : Ok m) (c : Dev nD) : (dats m hO 0 c).arrAt 5 (cfgM m hO).N = Zarr m c :=
  (dats m hO 0 c).arrAt_eq_of_cover 5 (Zarr m c) (fun t _ => flushed5_eq m hO c t) (cover5 m hO)

end Cert.KernelIdeal.Gen

end
-- ==== Proof.KTail.lean ====
/-
  The decoder, shared by the kernel's program and the reference: the encoder's result through the third layer, a relu and
  the fourth layer, flattened to one number per sample. Both programs apply exactly these host operations to their
  encoder's result, so it is carried as one function and never opened.
-/
import proofs.«431164_j65386582114982_1_alg».proof.Proof.Gen.KernelIdeal

noncomputable section

namespace Cert.KernelIdeal.Enc

open Idealize.ShloMosaic Cert.KernelIdeal Cert.KernelIdeal.Facts₀

variable {F : FTy → Type} [FloatOps F]

/-- `relu (z · W3 + b3) · W4 + b4`, as the host operations compute it. -/
def decTail (z : FVec F S64x64 .f32) (W3 : FVec F S64x256 .f32) (b3 : FVec F S256 .f32) (W4 : FVec F S256x1 .f32)
    (b4 : FVec F S1 .f32) : FVec F S64 .f32 :=
  shapeCast S64 (addf (Host.dotGeneral dot_S64x256_S256x1_S64x1_1_0_0_1_n_n none
      (maximumf (addf (Host.dotGeneral dot_S64x64_S64x256_S64x256_1_0_0_1_n_n none z W3)
          (broadcastInDim S64x256 ![0, 1] bcast_S1x256_S64x256_0_1 (broadcastInDim S1x256 ![1] bcast_S256_S1x256_1 b3)))
        (broadcastInDim S64x256 ![] bcast_S_S64x256 (constant S_ .f32 0x00000000#32))) W4)
    (broadcastInDim S64x1 ![0, 1] bcast_S1x1_S64x1_0_1 (broadcastInDim S1x1 ![1] bcast_S1_S1x1_1 b4))) shapeCasts_S64x1_S64

end Cert.KernelIdeal.Enc

end
-- ==== Proof.KRun.lean ====
import proofs.«431164_j65386582114982_1_alg».proof.Proof.Gen.KernelIdeal.Frame
import proofs.«431164_j65386582114982_1_alg».proof.Proof.KValue
import proofs.«431164_j65386582114982_1_alg».proof.Proof.KTail
import Idealize.ShloMosaic.Lib.ValueIdx
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-! ## The lines after the region, and the run -/

/-- What the region and the lines before it leave in the buffers the decoder reads: the encoder's output array at the
    encoder's result, the decoder's four arrays as launched. -/
theorem arr_v0 (hO : Ok m) (c : Dev nD) :
    Pipeline.withArrays (Pipeline.pin pcfgs (fun _ => adm m hO) 0).spec c (V0 m c)
      (fun w => (dats m hO 0 c).arrAt w (Pipeline.pin pcfgs (fun _ => adm m hO) 0).N) (Proc.devRef .tc main_v0) = Zarr m c :=
  (Pipeline.withArrays_arr spec0 winFacts0.arr_inj c _ _ 5).trans (final5 m hO c)
theorem arr_arg6 (hO : Ok m) (c : Dev nD) :
    Pipeline.withArrays (Pipeline.pin pcfgs (fun _ => adm m hO) 0).spec c (V0 m c)
      (fun w => (dats m hO 0 c).arrAt w (Pipeline.pin pcfgs (fun _ => adm m hO) 0).N) (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)
theorem arr_arg7 (hO : Ok m) (c : Dev nD) :
    Pipeline.withArrays (Pipeline.pin pcfgs (fun _ => adm m hO) 0).spec c (V0 m c)
      (fun w => (dats m hO 0 c).arrAt w (Pipeline.pin pcfgs (fun _ => adm m hO) 0).N) (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)
theorem arr_arg8 (hO : Ok m) (c : Dev nD) :
    Pipeline.withArrays (Pipeline.pin pcfgs (fun _ => adm m hO) 0).spec c (V0 m c)
      (fun w => (dats m hO 0 c).arrAt w (Pipeline.pin pcfgs (fun _ => adm m hO) 0).N) (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)
theorem arr_arg9 (hO : Ok m) (c : Dev nD) :
    Pipeline.withArrays (Pipeline.pin pcfgs (fun _ => adm m hO) 0).spec c (V0 m c)
      (fun w => (dats m hO 0 c).arrAt w (Pipeline.pin pcfgs (fun _ => adm m hO) 0).N) (Proc.devRef .tc main_arg9) = m ((c : Thread nD τ).loc main_arg9) :=
  (Pipeline.withArrays_of_ne _ c (V0 m c) _ main_arg9 (by exact (by decide : ∀ w, Pipeline.arrRef spec0 w ≠ main_arg9))).trans (V_main_arg9 m c)

/-- After the lines that follow the region the result buffer holds the decoder of the encoder's result. -/
theorem tail_v10 (hO : Ok m) (c : Dev nD) :
    Pipeline.afterTail pcfgs (fun _ => adm m hO) (dats m hO) 0 (V0 m) [hostOps1, hostOps1_1, hostOps1_2] c main_v10
      = Enc.decTail (F := Ideal) (Zarr m c) (m ((c : Thread nD τ).loc main_arg6)) (m ((c : Thread nD τ).loc main_arg7))
          (m ((c : Thread nD τ).loc main_arg8)) (m ((c : Thread nD τ).loc main_arg9)) := by
  unfold Pipeline.afterTail
  simp only [hostOps1, hostOps1_1, hostOps1_2, List.flatten_cons, List.flatten_nil, List.append_nil, List.cons_append, List.nil_append]
  after_results
  rw [arr_v0 m hO c, arr_arg6 m hO c, arr_arg7 m hO c, arr_arg8 m hO c, arr_arg9 m hO c]
  rfl

/-- THE RUN, READ: every weakly fair execution terminates with the result buffer at the decoder of the encoder's result
    of the argument arrays, and the arguments unchanged. -/
theorem run (hO : Ok m) : θ_run defs (onTc (τ := τ) (main (F := Ideal))) ⟨m, fun _ => 0, ρ⟩ (fun r => ∀ c : Dev nD,
      r.2.mem ((c.tc : Thread nD τ).loc main_v10)
        = Enc.decTail (F := Ideal) (Zarr m c) (m ((c : Thread nD τ).loc main_arg6)) (m ((c : Thread nD τ).loc main_arg7))
            (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v10 (by decide : main_v10 ∈ Pipeline.restRefs sig spec0)).trans (tail_v10 m hO c),
      ((h c).1 0).trans (((dats m hO 0 c).arrAt_in 0 rfl _).trans ((A_eq m hO c 0).trans (V_main_arg0 m c))),
      (((h c).2 main_arg1 (by decide : main_arg1 ∈ Pipeline.restRefs sig spec0)).trans (W_main_arg1 m hO (dats m hO) c)),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c))),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c))),
      (((h c).2 main_arg6 (by decide : main_arg6 ∈ Pipeline.restRefs sig spec0)).trans (W_main_arg6 m hO (dats m hO) c)),
      (((h c).2 main_arg7 (by decide : main_arg7 ∈ Pipeline.restRefs sig spec0)).trans (W_main_arg7 m hO (dats m hO) c)),
      (((h c).2 main_arg8 (by decide : main_arg8 ∈ Pipeline.restRefs sig spec0)).trans (W_main_arg8 m hO (dats m hO) c)),
      (((h c).2 main_arg9 (by decide : main_arg9 ∈ Pipeline.restRefs sig spec0)).trans (W_main_arg9 m hO (dats m hO) c))⟩)
    (run_main m ρ hO)

end Cert.KernelIdeal.Gen

end
-- ==== Proof.RefZ.lean ====
/-
  The reference's encoder stage is the encoder's result: the host program's masked sum over the columns of the codes,
  read one operation at a time at an index, is `Cert.Enc.encZ` of the argument arrays.
-/
import proofs.«431164_j65386582114982_1_alg».proof.Proof.Gen.ReferenceIdeal.Read
import proofs.«431164_j65386582114982_1_alg».proof.Proof.Spec
import Idealize.ShloMosaic.Lib.KernelVsHost

noncomputable section

open scoped BigOperators

namespace Cert.ReferenceIdeal.RefEnc

open Cert.ReferenceIdeal Idealize.ShloMosaic Idealize.ShloMosaic.ValueIdx

/-- The mask at sample `b`, column `s`: the comparison of the column number with the sample's length word, as 0 or 1. -/
theorem mask_apply (x1 : (⟨S64, .i32⟩ : BufTy).Contents (Elt Ideal)) (b : Fin 64) (s : Fin 2048) :
    Read.val_main_v6 (F := Ideal) x1 (ix2 b s) = Cert.Enc.ind (x1 (ix1 b)) s := by
  rw [Read.val_main_v6_apply, Read.val_main_v5_apply, Read.val_main_v3_apply, Read.val_main_v1_apply,
    Read.val_main_v0_apply, Read.val_main_v4_apply, Read.val_main_v2_apply]
  have e : Read.idx_main_v2 (Read.idx_main_v4 (ix2 b s)) = ix1 b :=
    funext fun a => Fin.ext (by match a with | ⟨0, _⟩ => rfl)
  rw [e]
  rfl

/-- The masked table at `(b, i, s)`. -/
theorem um_apply (x0 : (⟨S64x256x2048, .f32⟩ : BufTy).Contents (Elt Ideal)) (x1 : (⟨S64, .i32⟩ : BufTy).Contents (Elt Ideal))
    (b : Fin 64) (i : Fin 256) (s : Fin 2048) :
    Read.val_main_v9 x0 x1 (ix3 b i s) = Cert.Enc.umI (x1 (ix1 b)) (Cert.Enc.sample x0 b) i s := by
  rw [Read.val_main_v9_apply, Read.val_main_v8_apply, Read.val_main_v7_apply]
  have e : Read.idx_main_v7 (Read.idx_main_v8 (ix3 b i s)) = ix2 b s :=
    funext fun a => Fin.ext (by match a with | ⟨0, _⟩ => rfl | ⟨1, _⟩ => rfl)
  rw [e, mask_apply]
  rfl

/-- The row sums of the masked table at `(b, i)`. -/
theorem w_apply (x0 : (⟨S64x256x2048, .f32⟩ : BufTy).Contents (Elt Ideal)) (x1 : (⟨S64, .i32⟩ : BufTy).Contents (Elt Ideal))
    (b : Fin 64) (i : Fin 256) :
    Read.val_main_v10 x0 x1 (ix2 b i) = Cert.Enc.wI (x1 (ix1 b)) (Cert.Enc.sample x0 b) i := by
  rw [Read.val_main_v10_apply, Read.val_main_cst_apply, Ideal.ofBits_def, Ideal.ofBits_zero_f32, zero_add]
  refine Finset.sum_congr rfl fun k _ => ?_
  have e : Read.idx_main_v10 (ix2 b i) k = ix3 b i k :=
    funext fun a => Fin.ext (by match a with | ⟨0, _⟩ => rfl | ⟨1, _⟩ => rfl | ⟨2, _⟩ => rfl)
  rw [e, um_apply]

/-- The encoder's input at `(b, s, i)`, `i` below 256: the transposed masked table. -/
theorem enc_left (x0 : (⟨S64x256x2048, .f32⟩ : BufTy).Contents (Elt Ideal)) (x1 : (⟨S64, .i32⟩ : BufTy).Contents (Elt Ideal))
    (b : Fin 64) (s : Fin 2048) (i : Fin 256) :
    Read.val_main_v14 x0 x1 (ix3 b s (Fin.castAdd 256 i)) = Cert.Enc.umI (x1 (ix1 b)) (Cert.Enc.sample x0 b) i s := by
  unfold Read.val_main_v14
  rw [concatenate_pair_apply_left (t := S64x2048x512) (s₁ := S64x2048x256) (s₂ := S64x2048x256) 2 _ _ _ (ix3 b s (Fin.castAdd 256 i)) rfl (ix3 b s i)
    (fun a => by match a with | ⟨0, _⟩ => rfl | ⟨1, _⟩ => rfl | ⟨2, _⟩ => rfl)]
  rw [Read.val_main_v11_apply]
  have e : Read.idx_main_v11 (ix3 b s i) = ix3 b i s :=
    funext fun a => Fin.ext (by match a with | ⟨0, _⟩ => rfl | ⟨1, _⟩ => rfl | ⟨2, _⟩ => rfl)
  rw [e, um_apply]

/-- The encoder's input at `(b, s, 256 + i)`: the row sum `w[b, i]`, the same at every column. -/
theorem enc_right (x0 : (⟨S64x256x2048, .f32⟩ : BufTy).Contents (Elt Ideal)) (x1 : (⟨S64, .i32⟩ : BufTy).Contents (Elt Ideal))
    (b : Fin 64) (s : Fin 2048) (i : Fin 256) :
    Read.val_main_v14 x0 x1 (ix3 b s (Fin.natAdd 256 i)) = Cert.Enc.wI (x1 (ix1 b)) (Cert.Enc.sample x0 b) i := by
  unfold Read.val_main_v14
  rw [concatenate_pair_apply_right (t := S64x2048x512) (s₁ := S64x2048x256) (s₂ := S64x2048x256) 2 _ _ _ (ix3 b s (Fin.natAdd 256 i)) rfl rfl (ix3 b s i)
    (fun a => by match a with | ⟨0, _⟩ => exact fun _ => rfl | ⟨1, _⟩ => exact fun _ => rfl | ⟨2, _⟩ => exact fun h => absurd rfl h)
    (by show i.val + 256 = 256 + i.val; omega)]
  rw [Read.val_main_v13_apply, Read.val_main_v12_apply]
  have e : Read.idx_main_v12 (Read.idx_main_v13 (ix3 b s i)) = ix2 b i :=
    funext fun a => Fin.ext (by match a with | ⟨0, _⟩ => rfl | ⟨1, _⟩ => rfl)
  rw [e, w_apply]

/-- The hidden layer at `(b, s, h)`: the contraction over the 512 inputs splits into the masked table's 256 against the
    upper half of the weights and the 256 row sums against the lower half. -/
theorem hid_apply (x0 : (⟨S64x256x2048, .f32⟩ : BufTy).Contents (Elt Ideal)) (x1 : (⟨S64, .i32⟩ : BufTy).Contents (Elt Ideal))
    (x2 : (⟨S512x512, .f32⟩ : BufTy).Contents (Elt Ideal)) (x3 : (⟨S512, .f32⟩ : BufTy).Contents (Elt Ideal))
    (b : Fin 64) (s : Fin 2048) (h : Fin 512) :
    Read.val_main_v19 x0 x1 x2 x3 (ix3 b s h)
      = Cert.Enc.hidI (Cert.Enc.upper x2) (Cert.Enc.lower x2) x3 (x1 (ix1 b)) (Cert.Enc.sample x0 b) s h := by
  rw [Read.val_main_v19_apply, Read.val_main_v18_apply, Read.val_main_v15_apply, Read.val_main_v17_apply,
    Read.val_main_v16_apply, Read.val_main_call0_v0_apply, Read.val_main_call0_cst_apply, Ideal.ofBits_def,
    Ideal.ofBits_zero_f32]
  have eb : Read.idx_main_v16 (Read.idx_main_v17 (ix3 b s h)) = ix1 h :=
    funext fun a => Fin.ext (by match a with | ⟨0, _⟩ => rfl)
  rw [eb]
  have es : (∑ k : Fin 512, Read.val_main_v14 x0 x1 (Read.lidx_main_v15 (ix3 b s h) k) * x2 (Read.ridx_main_v15 (ix3 b s h) k))
      = (∑ i : Fin 256, Cert.Enc.umI (x1 (ix1 b)) (Cert.Enc.sample x0 b) i s * Cert.Enc.upper x2 (ix2 i h))
        + Cert.Enc.wbI (Cert.Enc.lower x2) (x1 (ix1 b)) (Cert.Enc.sample x0 b) h := by
    refine (Fin.sum_univ_add (a := 256) (b := 256) _).trans ?_
    refine congrArg₂ (· + ·) (Finset.sum_congr rfl fun i _ => ?_) (Finset.sum_congr rfl fun i _ => ?_)
    · have el : Read.lidx_main_v15 (ix3 b s h) (Fin.castAdd 256 i) = ix3 b s (Fin.castAdd 256 i) :=
        funext fun a => Fin.ext (by match a with | ⟨0, _⟩ => rfl | ⟨1, _⟩ => rfl | ⟨2, _⟩ => rfl)
      rw [el, enc_left]
      show _ * x2 _ = _ * x2 _
      exact congrArg (_ * x2 ·) (funext fun a => Fin.ext (by match a with | ⟨0, _⟩ => rfl | ⟨1, _⟩ => rfl))
    · have el : Read.lidx_main_v15 (ix3 b s h) (Fin.natAdd 256 i) = ix3 b s (Fin.natAdd 256 i) :=
        funext fun a => Fin.ext (by match a with | ⟨0, _⟩ => rfl | ⟨1, _⟩ => rfl | ⟨2, _⟩ => rfl)
      rw [el, enc_right]
      show _ * x2 _ = _ * x2 _
      exact congrArg (_ * x2 ·) (funext fun a => Fin.ext (by match a with | ⟨0, _⟩ => rfl | ⟨1, _⟩ => rfl))
  rw [es]
  rfl

/-- The code at `(b, s, z)`. -/
theorem zall_apply (x0 : (⟨S64x256x2048, .f32⟩ : BufTy).Contents (Elt Ideal)) (x1 : (⟨S64, .i32⟩ : BufTy).Contents (Elt Ideal))
    (x2 : (⟨S512x512, .f32⟩ : BufTy).Contents (Elt Ideal)) (x3 : (⟨S512, .f32⟩ : BufTy).Contents (Elt Ideal))
    (x4 : (⟨S512x64, .f32⟩ : BufTy).Contents (Elt Ideal)) (x5 : (⟨S64, .f32⟩ : BufTy).Contents (Elt Ideal))
    (b : Fin 64) (s : Fin 2048) (z : Fin 64) :
    Read.val_main_v24 x0 x1 x2 x3 x4 x5 (ix3 b s z)
      = Cert.Enc.zI (Cert.Enc.upper x2) (Cert.Enc.lower x2) x4 x3 x5 (x1 (ix1 b)) (Cert.Enc.sample x0 b) s z := by
  rw [Read.val_main_v24_apply, Read.val_main_v23_apply, Read.val_main_v20_apply, Read.val_main_v22_apply,
    Read.val_main_v21_apply, Read.val_main_call1_v0_apply, Read.val_main_call1_cst_apply, Ideal.ofBits_def,
    Ideal.ofBits_zero_f32]
  have eb : Read.idx_main_v21 (Read.idx_main_v22 (ix3 b s z)) = ix1 z :=
    funext fun a => Fin.ext (by match a with | ⟨0, _⟩ => rfl)
  rw [eb]
  have es : (∑ k : Fin 512, Read.val_main_v19 x0 x1 x2 x3 (Read.lidx_main_v20 (ix3 b s z) k) * x4 (Read.ridx_main_v20 (ix3 b s z) k))
      = ∑ h : Fin 512, Cert.Enc.hidI (Cert.Enc.upper x2) (Cert.Enc.lower x2) x3 (x1 (ix1 b)) (Cert.Enc.sample x0 b) s h * x4 (ix2 h z) := by
    refine Finset.sum_congr rfl fun k _ => ?_
    have el : Read.lidx_main_v20 (ix3 b s z) k = ix3 b s k :=
      funext fun a => Fin.ext (by match a with | ⟨0, _⟩ => rfl | ⟨1, _⟩ => rfl | ⟨2, _⟩ => rfl)
    have er : Read.ridx_main_v20 (ix3 b s z) k = ix2 k z :=
      funext fun a => Fin.ext (by match a with | ⟨0, _⟩ => rfl | ⟨1, _⟩ => rfl)
    rw [el, er, hid_apply]
  rw [es]
  rfl

/-- The reference's value for the encoder's output (its buffer `%28`), as a function of the first six arguments, is the
    encoder's result index by index. -/
theorem ref_enc (x0 : (⟨S64x256x2048, .f32⟩ : BufTy).Contents (Elt Ideal)) (x1 : (⟨S64, .i32⟩ : BufTy).Contents (Elt Ideal))
    (x2 : (⟨S512x512, .f32⟩ : BufTy).Contents (Elt Ideal)) (x3 : (⟨S512, .f32⟩ : BufTy).Contents (Elt Ideal))
    (x4 : (⟨S512x64, .f32⟩ : BufTy).Contents (Elt Ideal)) (x5 : (⟨S64, .f32⟩ : BufTy).Contents (Elt Ideal)) :
    Read.val_main_v28 x0 x1 x2 x3 x4 x5 = Cert.Enc.encZ x0 x1 x2 x3 x4 x5 := by
  funext j
  obtain ⟨b, z, rfl⟩ : ∃ (b : Fin 64) (z : Fin 64), j = ix2 b z := ⟨j 0, j 1, eq_ix2 j⟩
  rw [Read.val_main_v28_apply, Read.val_main_cst_0_apply, Ideal.ofBits_def, Ideal.ofBits_zero_f32, zero_add]
  show _ = ∑ s : Fin 2048, Cert.Enc.ind (x1 (ix1 b)) s
    * Cert.Enc.zI (Cert.Enc.upper x2) (Cert.Enc.lower x2) x4 x3 x5 (x1 (ix1 b)) (Cert.Enc.sample x0 b) s z
  refine Finset.sum_congr rfl fun s _ => ?_
  rw [Read.val_main_v27_apply, Read.val_main_v26_apply, Read.val_main_v25_apply]
  have ec : Read.idx_main_v28 (ix2 b z) s = ix3 b s z :=
    funext fun a => Fin.ext (by match a with | ⟨0, _⟩ => rfl | ⟨1, _⟩ => rfl | ⟨2, _⟩ => rfl)
  have em : Read.idx_main_v25 (Read.idx_main_v26 (ix3 b s z)) = ix2 b s :=
    funext fun a => Fin.ext (by match a with | ⟨0, _⟩ => rfl | ⟨1, _⟩ => rfl)
  rw [ec, em, zall_apply, mask_apply]
  exact mul_comm _ _

end Cert.ReferenceIdeal.RefEnc

end
-- ==== Proof.RefTail.lean ====
/-
  The reference's result is the shared decoder of its encoder stage: the last ten host operations of the reference are
  the decoder's, applied to the encoder's output (its buffer `%28`).
-/
import proofs.«431164_j65386582114982_1_alg».proof.Proof.Gen.ReferenceIdeal.Read
import proofs.«431164_j65386582114982_1_alg».proof.Proof.KTail
import proofs.«431164_j65386582114982_1_alg».proof.Proof.RefZ

set_option maxRecDepth 16384

noncomputable section

namespace Cert.ReferenceIdeal.RefEnc

open Cert.ReferenceIdeal Idealize.ShloMosaic

/-- The reference's result, as a function of its ten arguments, is the decoder of the encoder's result. -/
theorem ref_result (x0 : (⟨S64x256x2048, .f32⟩ : BufTy).Contents (Elt Ideal)) (x1 : (⟨S64, .i32⟩ : BufTy).Contents (Elt Ideal))
    (x2 : (⟨S512x512, .f32⟩ : BufTy).Contents (Elt Ideal)) (x3 : (⟨S512, .f32⟩ : BufTy).Contents (Elt Ideal))
    (x4 : (⟨S512x64, .f32⟩ : BufTy).Contents (Elt Ideal)) (x5 : (⟨S64, .f32⟩ : BufTy).Contents (Elt Ideal))
    (x6 : (⟨S64x256, .f32⟩ : BufTy).Contents (Elt Ideal)) (x7 : (⟨S256, .f32⟩ : BufTy).Contents (Elt Ideal))
    (x8 : (⟨S256x1, .f32⟩ : BufTy).Contents (Elt Ideal)) (x9 : (⟨S1, .f32⟩ : BufTy).Contents (Elt Ideal)) :
    Read.val_main_v38 (F := Ideal) x0 x1 x2 x3 x4 x5 x6 x7 x8 x9
      = Cert.KernelIdeal.Enc.decTail (F := Ideal) (Cert.Enc.encZ x0 x1 x2 x3 x4 x5) x6 x7 x8 x9 := by
  have h : Read.val_main_v38 (F := Ideal) x0 x1 x2 x3 x4 x5 x6 x7 x8 x9
      = Cert.KernelIdeal.Enc.decTail (F := Ideal) (Read.val_main_v28 x0 x1 x2 x3 x4 x5) x6 x7 x8 x9 := rfl
  rw [h, ref_enc]

end Cert.ReferenceIdeal.RefEnc

end
-- ==== Proof.lean ====
/-
  The certificate of the set encoder.

  For each of 64 samples the kernel masks the sample's table `u[b]` (256 features by 2048 columns) to the columns below the
  sample's length, pushes every column (the masked column stacked on the masked table's row sums) through two relu
  layers, and sums the codes over the valid columns; a small decoder, plain host operations shared with the reference,
  follows. The kernel does this eight samples per grid point, each sample in eight chunks of 256 columns, the first layer
  as two products (the upper half of its weights with the masked columns, the lower half with the row sums); the reference
  does it for all samples at once with one product over the 512 stacked features.

  On the extended reals the two are one function: a sum over 512 stacked features is the sum over the first 256 plus the
  sum over the last 256, a sum over 2048 columns is the sum of the eight chunks' sums, and a product commutes — only
  commutativity and associativity of `+` and `*` and `0 + x = x`, so nothing is asked of the inputs beyond what the
  statement says. `Cert.Enc.encZ` (Proof/Spec.lean) is that function; Proof/KRow.lean reads one sample's code as the
  kernel computes it, Proof/KPiece.lean and Proof/KValue.lean what the kernel's run leaves in the encoder's output array,
  Proof/KRun.lean the lines after the region; Proof/RefZ.lean and Proof/RefTail.lean read the reference. The prefetched
  table of lengths is read by no index map, so the side condition of the generated frames is `True`.
-/
import proofs.«431164_j65386582114982_1_alg».proof.Defs
import proofs.«431164_j65386582114982_1_alg».proof.Proof.Gen.Kernel
import proofs.«431164_j65386582114982_1_alg».proof.Proof.Gen.Kernel.Skeleton
import proofs.«431164_j65386582114982_1_alg».proof.Proof.Gen.Kernel.Launch
import proofs.«431164_j65386582114982_1_alg».proof.Proof.Gen.Kernel.Points
import proofs.«431164_j65386582114982_1_alg».proof.Proof.Gen.Kernel.Frame
import proofs.«431164_j65386582114982_1_alg».proof.Proof.Gen.KernelIdeal
import proofs.«431164_j65386582114982_1_alg».proof.Proof.Gen.KernelIdeal.Skeleton
import proofs.«431164_j65386582114982_1_alg».proof.Proof.Gen.KernelIdeal.Launch
import proofs.«431164_j65386582114982_1_alg».proof.Proof.Gen.KernelIdeal.Points
import proofs.«431164_j65386582114982_1_alg».proof.Proof.Gen.KernelIdeal.Frame
import proofs.«431164_j65386582114982_1_alg».proof.Proof.Gen.ReferenceIdeal
import proofs.«431164_j65386582114982_1_alg».proof.Proof.Gen.Pre_finite_inputs
import proofs.«431164_j65386582114982_1_alg».proof.Proof.Gen.ReferenceIdeal.Run
import proofs.«431164_j65386582114982_1_alg».proof.Proof.Gen.ReferenceIdeal.Read
import proofs.«431164_j65386582114982_1_alg».proof.Proof.KRun
import proofs.«431164_j65386582114982_1_alg».proof.Proof.RefTail
import Idealize.ShloMosaic.Adequacy
import Idealize.ShloMosaic.Init

noncomputable section

namespace Cert.Proof

open Idealize.ShloMosaic Idealize.ShloMosaic.TcCoe Idealize.SL.Sem

/-- The kernel as printed runs: no index map reads the table of lengths, so the frame's side condition is `True`. -/
theorem frame_k : Cert.frame_Kernel := fun m ρ _ => Cert.Kernel.Gen.frame m ρ trivial
/-- The idealized kernel runs, likewise. -/
theorem frame_ki : Cert.frame_KernelIdeal := fun m ρ _ => Cert.KernelIdeal.Gen.frame m ρ trivial
/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the decoder of the encoder's result of the (agreeing) arguments. -/
theorem algebraic : Cert.algebraic_KernelIdeal_ReferenceIdeal := by
  intro m ρ m' ρ' _ hagree
  refine ⟨fun c => Cert.KernelIdeal.Enc.decTail (F := Ideal) (Cert.KernelIdeal.Gen.Zarr m c)
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Gen.run m ρ trivial, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v38_eq (F := Ideal) _ _ _ _ _ _ _ _ _ _).trans ?_
  refine (Cert.ReferenceIdeal.RefEnc.ref_result _ _ _ _ _ _ _ _ _ _).trans ?_
  obtain ⟨h0, h1, h2, h3, h4, h5, h6, h7, h8, h9⟩ := hagree c
  rw [h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
